-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S16777216 .f32) (main_arg1 : FVec F S16777216 .f32) (main_arg2 : FVec F S16777216 .f32) (main_arg3 : FVec F S16777216 .f32) (main_arg4 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S16777216 : Shape := ⟨1, ![16777216]⟩
abbrev S2x1x1 : Shape := ⟨3, ![2, 1, 1]⟩
abbrev S2x1x8x8 : Shape := ⟨4, ![2, 1, 8, 8]⟩
abbrev S262144 : Shape := ⟨1, ![262144]⟩
abbrev S1x1x1 : Shape := ⟨3, ![1, 1, 1]⟩
abbrev S1x1x8x8 : Shape := ⟨4, ![1, 1, 8, 8]⟩
abbrev S4096 : Shape := ⟨1, ![4096]⟩
abbrev S8x8 : Shape := ⟨2, ![8, 8]⟩
abbrev S8x4096 : Shape := ⟨2, ![8, 4096]⟩
abbrev S4096x8 : Shape := ⟨2, ![4096, 8]⟩
abbrev S1x4096 : Shape := ⟨2, ![1, 4096]⟩
abbrev S4096x1 : Shape := ⟨2, ![4096, 1]⟩
abbrev S1 : Shape := ⟨1, ![1]⟩
abbrev S1x1 : Shape := ⟨2, ![1, 1]⟩
abbrev S_ : Shape := ⟨0, ![]⟩
abbrev S1x8x8 : Shape := ⟨3, ![1, 8, 8]⟩
abbrev S64 : Shape := ⟨1, ![64]⟩

abbrev nBuf : Space → Nat
  | .hbm => 17
  | .vmem => 16
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S16777216, .i32⟩
  | .hbm, ⟨5, _⟩ => ⟨S2x1x1, .f32⟩
  | .hbm, ⟨6, _⟩ => ⟨S2x1x8x8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x8x8, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .local _ .vmem, ⟨0, _⟩ => ⟨S262144, .f32⟩
  | .local _ .vmem, ⟨1, _⟩ => ⟨S262144, .f32⟩
  | .local _ .vmem, ⟨2, _⟩ => ⟨S262144, .f32⟩
  | .local _ .vmem, ⟨3, _⟩ => ⟨S262144, .f32⟩
  | .local _ .vmem, ⟨4, _⟩ => ⟨S262144, .f32⟩
  | .local _ .vmem, ⟨5, _⟩ => ⟨S262144, .f32⟩
  | .local _ .vmem, ⟨6, _⟩ => ⟨S262144, .f32⟩
  | .local _ .vmem, ⟨7, _⟩ => ⟨S262144, .f32⟩
  | .local _ .vmem, ⟨8, _⟩ => ⟨S262144, .i32⟩
  | .local _ .vmem, ⟨9, _⟩ => ⟨S262144, .i32⟩
  | .local _ .vmem, ⟨10, _⟩ => ⟨S1x1x1, .f32⟩
  | .local _ .vmem, ⟨11, _⟩ => ⟨S1x1x1, .f32⟩
  | .local _ .vmem, ⟨12, _⟩ => ⟨S1x1x8x8, .f32⟩
  | .local _ .vmem, ⟨13, _⟩ => ⟨S1x1x8x8, .f32⟩
  | .local _ .vmem, ⟨14, _⟩ => ⟨S4096, .f32⟩
  | .local _ .vmem, ⟨15, _⟩ => ⟨S8x8, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_4 : BitVec 32 := 0#32
  let c64_i32 : BitVec 32 := 64#32
  let v13 : BitVec 32 := Scalar.addi c0_i32_4 c64_i32
  let c1_i32 : BitVec 32 := 1#32
  ⟨c0_i32_4, v13, c1_i32⟩
def k0_mult1 (k0_t1 : Fin k0_t1_loop.trips) : BitVec 32 :=
  let c0_i32_25 : BitVec 32 := 0#32
  let c0_i32_4 : BitVec 32 := 0#32
  let c1_i32 : BitVec 32 := 1#32
  let arg11 : BitVec 32 := Scf.iv c0_i32_4 c1_i32 k0_t1
  let c1_i32_24 : BitVec 32 := 1#32
  let v31 : BitVec 32 := Scalar.muli arg11 c1_i32_24
  let v32 : BitVec 32 := Scalar.addi c0_i32_25 v31
  let c4096_i32 : BitVec 32 := 4096#32
  let v33 : BitVec 32 := Scalar.muli v32 c4096_i32
  v33
def k0_off1 (k0_t1 : Fin k0_t1_loop.trips) : Fin 1 → Nat :=
  let c0_i32_25 : BitVec 32 := 0#32
  let c0_i32_4 : BitVec 32 := 0#32
  let c1_i32 : BitVec 32 := 1#32
  let arg11 : BitVec 32 := Scf.iv c0_i32_4 c1_i32 k0_t1
  let c1_i32_24 : BitVec 32 := 1#32
  let v31 : BitVec 32 := Scalar.muli arg11 c1_i32_24
  let v32 : BitVec 32 := Scalar.addi c0_i32_25 v31
  let c4096_i32 : BitVec 32 := 4096#32
  let v33 : BitVec 32 := Scalar.muli v32 c4096_i32
  let v34 : BitVec 32 := v33
  let v35 : Index := Scalar.indexCast v34
  ![v35.toNat]
def cc0_transform_0 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_3 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_4 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S262144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S262144 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x1x8x8_S1x1x8x8_0_0_0_0 : ∀ a, (![0, 0, 0, 0] : Fin 4 → Nat) a + S1x1x8x8.size a ≤ S1x1x8x8.size a
  h_S1x1x8x8 : 0 < S1x1x8x8.numel
  inb_S4096_S4096_0 : ∀ a, (![0] : Fin 1 → Nat) a + S4096.size a ≤ S4096.size a
  h_S4096 : 0 < S4096.numel
  shapeCasts_S4096_S4096 : S4096.ShapeCasts S4096
  inb_S8x8_S8x8_0_0 : ∀ a, (![0, 0] : Fin 2 → Nat) a + S8x8.size a ≤ S8x8.size a
  h_S8x8 : 0 < S8x8.numel
  shapeCasts_S8x8_S8x8 : S8x8.ShapeCasts S8x8
  iota_S8x4096_d0_w32 : S8x4096.Iotas .tc 32 [0]
  iota_S4096x8_d1_w32 : S4096x8.Iotas .tc 32 [1]
  shapeCasts_S4096_S1x4096 : S4096.ShapeCasts S1x4096
  broadcasts_S1x4096_S8x4096 : S1x4096.Broadcasts S8x4096
  natLt_1_32 : 1 < 32
  bitsLt_bf16_f32 : FTy.bits .bf16 < FTy.bits .f32
  shapeCasts_S4096_S4096x1 : S4096.ShapeCasts S4096x1
  broadcasts_S4096x1_S4096x8 : S4096x1.Broadcasts S4096x8
  reduces_S1x4096_S1 : S1x4096.Reduces [1] S1
  shapeCasts_S1_S1x1 : S1.ShapeCasts S1x1
  inpos_S1x1_p0_0 : ∀ a, (![0, 0] : Fin 2 → Nat) a < S1x1.size a
  shapeCasts_S1x1x1_S1x1x1 : S1x1x1.ShapeCasts S1x1x1
  shapeCasts_S1x1_S1x1x1 : S1x1.ShapeCasts S1x1x1
  shapeCasts_S1x1x8x8_S1x1x8x8 : S1x1x8x8.ShapeCasts S1x1x8x8
  shapeCasts_S8x8_S1x1x8x8 : S8x8.ShapeCasts S1x1x8x8
  reducesTo_S2x1x1_S_d0_1_2 : S2x1x1.ReducesTo [0, 1, 2] S_
  h_S_ : 0 < S_.numel
  reducesTo_S2x1x8x8_S1x8x8_d0 : S2x1x8x8.ReducesTo [0] S1x8x8
  shapeCasts_S1x8x8_S64 : S1x8x8.ShapeCasts S64
  bcast_S_S64 : S_.BroadcastsInDim S64 (![] : Fin 0 → Fin S64.rank)
  dot_S8x4096_S4096x8_S8x8_1_0_0_1_n_n_wf : DotDims.WF S8x4096 S4096x8 S8x8 [1] [0] [0] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S4096.size a ≤ S262144.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S16777216.size a
  hwx0_0 : ∀ i : grid0.Coords, EltTy.bits .f32 = 32 ∨ (Rect.block (s := S16777216) S262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S16777216.size a
  hwx0_1 : ∀ i : grid0.Coords, EltTy.bits .f32 = 32 ∨ (Rect.block (s := S16777216) S262144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144.size a ≤ S16777216.size a
  hwx0_2 : ∀ i : grid0.Coords, EltTy.bits .f32 = 32 ∨ (Rect.block (s := S16777216) S262144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S262144.size a ≤ S16777216.size a
  hwx0_3 : ∀ i : grid0.Coords, EltTy.bits .f32 = 32 ∨ (Rect.block (s := S16777216) S262144.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S262144.size a ≤ S16777216.size a
  hwx0_4 : ∀ i : grid0.Coords, EltTy.bits .i32 = 32 ∨ (Rect.block (s := S16777216) S262144.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x8x8.size a ≤ S2x1x8x8.size a
  hwx0_6 : ∀ i : grid0.Coords, EltTy.bits .f32 = 32 ∨ (Rect.block (s := S2x1x8x8) S1x1x8x8.size (cc0_transform_6 i) (hinb0_6 i)).WholeWords (EltTy.packing .f32)

variable [Facts₀]

def dot_S8x4096_S4096x8_S8x8_1_0_0_1_n_n : DotDims S8x4096 S4096x8 S8x8 where
  lhsContracting := [1]
  rhsContracting := [0]
  lhsNonContracting := [0]
  rhsNonContracting := [1]
  lhsBatch := []
  rhsBatch := []
  wf := dot_S8x4096_S4096x8_S8x8_1_0_0_1_n_n_wf

abbrev win0_0 : Pipeline.Window sig grid0 :=
  Pipeline.Window.ofSpec (Memref.whole main_arg0) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S262144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S262144.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S262144.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x8x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S64 : Shape := ⟨1, ![64]⟩
abbrev S16777216x1 : Shape := ⟨2, ![16777216, 1]⟩

abbrev nBuf : Space → Nat
  | .hbm => 34
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S16777216, .i32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S16777216, .f32⟩
  | .hbm, ⟨9, _⟩ => ⟨S16777216, .f32⟩
  | .hbm, ⟨10, _⟩ => ⟨S_, .f32⟩
  | .hbm, ⟨11, _⟩ => ⟨S16777216, .f32⟩
  | .hbm, ⟨12, _⟩ => ⟨S16777216, .i1⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .i1⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S64, .f32⟩
  | .hbm, ⟨29, _⟩ => ⟨S16777216x1, .i32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel
  bcast_S_S64 : S_.BroadcastsInDim S64 (![] : Fin 0 → Fin S64.rank)
  bcast_S16777216_S16777216x1_0 : S16777216.BroadcastsInDim S16777216x1 (![0] : Fin 1 → Fin S16777216x1.rank)
  scatter_S64_S16777216x1_S16777216_n_0_0_1_wf : ScatterDims.WF S64 S16777216x1 S16777216 [] [0] [0] 1

variable [Facts₀]

def scatter_S64_S16777216x1_S16777216_n_0_0_1 : ScatterDims S64 S16777216x1 S16777216 where
  updateWindowDims := []
  insertedWindowDims := [0]
  scatterDimsToOperandDims := [0]
  indexVectorDim := 1
  wf := scatter_S64_S16777216x1_S16777216_n_0_0_1_wf

class Facts : Prop extends Facts₀ where

variable [Facts]
-- ==== Proof.Spec.lean ====
/-
  The mathematics both programs compute, stated once and over no program.

  Every element carries the weighted L1 term
      x = a(o, y, wl) * w,   a = |y - o| * (1 or 2),
  doubled exactly where the label weight is large (|wl| > 1/2) and the prediction does not overshoot
  (|y| - |o| ≤ 0).  The first result is the mean of x over all 2^24 elements; the second, for each of the
  64 labels u, the sum of x over the elements whose label is u, divided by 2^24.  An element whose label
  lies outside 0..63 contributes to the first result only.

  Arrays of rank one are read here at natural numbers (zero past the end), so that sums over blocks,
  chunks and lanes are sums over ranges of naturals and re-index by arithmetic alone.
-/
import Idealize.ShloMosaic.PureOps.Ideal
import Idealize.ShloMosaic.Lib.ValueIdx

noncomputable section

namespace Cert.Spec

open Idealize.ShloMosaic Idealize.ShloMosaic.ValueIdx
open scoped BigOperators

/-- The term of one element on the extended reals: |y - o|, doubled unless |y| - |o| > 0, the doubling
    applied only where |wl| > 1/2, times the weight w.  The three literals are the words 0.5, 0.0 and 2.0. -/
def pt (o y wl w : EReal) : EReal :=
  (Scalar.select (Ideal.cmp .ogt (max wl (-wl)) (Ideal.ofBits .f32 0x3F000000#32))
    (Scalar.select (Ideal.cmp .ogt (max y (-y) - max o (-o)) (Ideal.ofBits .f32 0x00000000#32))
      (max (y - o) (-(y - o))) (max (y - o) (-(y - o)) * Ideal.ofBits .f32 0x40000000#32))
    (max (y - o) (-(y - o)))) * w

/-- A rank-one array read at a natural number: its entry there, zero past the end. -/
def atNat {α : Type} [Zero α] {n : ℕ} (a : (⟨1, ![n]⟩ : Shape).Idx → α) (k : ℕ) : α :=
  if h : k < n then a (ix1 ⟨k, h⟩) else 0

theorem atNat_of_lt {α : Type} [Zero α] {n : ℕ} (a : (⟨1, ![n]⟩ : Shape).Idx → α) {k : ℕ} (h : k < n) :
    atNat a k = a (ix1 ⟨k, h⟩) := dif_pos h

/-- Element k's term, from four arrays of one extent (outputs, targets, label weights, weights). -/
def term {n : ℕ} (a0 a1 a2 a3 : (⟨1, ![n]⟩ : Shape).Idx → EReal) (k : ℕ) : EReal :=
  pt (atNat a0 k) (atNat a1 k) (atNat a2 k) (atNat a3 k)

/-- The sum of the terms of one block of 262144 elements. -/
def blockSum (x0 x1 x2 x3 : (⟨1, ![262144]⟩ : Shape).Idx → EReal) : EReal :=
  ∑ n ∈ Finset.range 262144, term x0 x1 x2 x3 n

/-- Label word b falls in cell (h, l) of the 8 × 8 table: its arithmetic shift right by three is h and its
    low three bits are l (so b = 8 h + l, and a word outside 0..63 falls in no cell). -/
def hit (b : BitVec 32) (h l : ℕ) : Prop :=
  BitVec.ofNat 32 h = IntOp.shrsi .vector b 3#32 ∧ BitVec.ofNat 32 l = IntOp.andi b 7#32

instance (b : BitVec 32) (h l : ℕ) : Decidable (hit b h l) := by unfold hit; infer_instance

/-- The sum of the terms of one block's elements whose label falls in cell (h, l). -/
def blockHits (x0 x1 x2 x3 : (⟨1, ![262144]⟩ : Shape).Idx → EReal) (x4 : (⟨1, ![262144]⟩ : Shape).Idx → BitVec 32)
    (h l : ℕ) : EReal :=
  ∑ n ∈ Finset.range 262144, if hit (atNat x4 n) h l then term x0 x1 x2 x3 n else 0

end Cert.Spec

end
-- ==== Proof.KDefs.lean ====
/-
  The kernel's values at the ideal instance, named: the argument arrays as the region finds them, a grid point's
  five input blocks at their literal types, one block's total and its 8 × 8 table of per-label totals, and the two
  result arrays as they should end — core c's entry the sum over that core's 32 blocks.
-/
import proofs.«417527_j89910845375274_3_alg».proof.Proof.Gen.KernelIdeal.Frame
import proofs.«417527_j89910845375274_3_alg».proof.Proof.Spec

noncomputable section

namespace Cert.KernelIdeal.KV

open Cert.KernelIdeal Cert.KernelIdeal.Gen Cert.Spec
open Idealize.ShloMosaic Idealize.ShloMosaic.TcCoe Idealize.SL.Sem
open scoped BigOperators

variable (m : (ℓ : Loc nD τ sig) → Buf (Elt Ideal) ℓ)

/-- The four float argument arrays and the label array, as the region finds them on core c. -/
abbrev A0 (c : Dev nD) : Vec Ideal S16777216 .f32 := V m c main_arg0
abbrev A1 (c : Dev nD) : Vec Ideal S16777216 .f32 := V m c main_arg1
abbrev A2 (c : Dev nD) : Vec Ideal S16777216 .f32 := V m c main_arg2
abbrev A3 (c : Dev nD) : Vec Ideal S16777216 .f32 := V m c main_arg3
abbrev A4 (c : Dev nD) : Vec Ideal S16777216 .i32 := V m c main_arg4

/-- Point t's block of each, at its literal type. -/
abbrev blk0 (c : Dev nD) (t : Fin cfg0.N) : Vec Ideal S262144 .f32 := iblk m c 0 t
abbrev blk1 (c : Dev nD) (t : Fin cfg0.N) : Vec Ideal S262144 .f32 := iblk m c 1 t
abbrev blk2 (c : Dev nD) (t : Fin cfg0.N) : Vec Ideal S262144 .f32 := iblk m c 2 t
abbrev blk3 (c : Dev nD) (t : Fin cfg0.N) : Vec Ideal S262144 .f32 := iblk m c 3 t
abbrev blk4 (c : Dev nD) (t : Fin cfg0.N) : Vec Ideal S262144 .i32 := iblk m c 4 t

/-- Every entry of the four float arrays is a real number. -/
def FiniteArgs (c : Dev nD) : Prop :=
  (∀ i, ∃ r : ℝ, A0 m c i = (r : EReal)) ∧ (∀ i, ∃ r : ℝ, A1 m c i = (r : EReal))
    ∧ (∀ i, ∃ r : ℝ, A2 m c i = (r : EReal)) ∧ (∀ i, ∃ r : ℝ, A3 m c i = (r : EReal))

/-- Block s's total (zero for a point the grid does not have). -/
def blockSumAt (c : Dev nD) (s : ℕ) : EReal :=
  if h : s < cfg0.N then blockSum (blk0 m c ⟨s, h⟩) (blk1 m c ⟨s, h⟩) (blk2 m c ⟨s, h⟩) (blk3 m c ⟨s, h⟩) else 0

/-- Block s's total over the elements whose label falls in cell (h, l). -/
def blockHitsAt (c : Dev nD) (s h l : ℕ) : EReal :=
  if hs : s < cfg0.N then
    blockHits (blk0 m c ⟨s, hs⟩) (blk1 m c ⟨s, hs⟩) (blk2 m c ⟨s, hs⟩) (blk3 m c ⟨s, hs⟩) (blk4 m c ⟨s, hs⟩) h l
  else 0

/-- The first result array of the region as it should end: core i's entry is the sum of its 32 blocks' totals. -/
def sumxArr (c : Dev nD) : Vec Ideal S2x1x1 .f32 :=
  fun i => ∑ s ∈ Finset.Ico (32 * (i 0).val) (32 * (i 0).val + 32), blockSumAt m c s

/-- The second: core i's 8 × 8 table is the sum of its 32 blocks' tables. -/
def labArr (c : Dev nD) : Vec Ideal S2x1x8x8 .f32 :=
  fun i => ∑ s ∈ Finset.Ico (32 * (i 0).val) (32 * (i 0).val + 32), blockHitsAt m c s (i 2).val (i 3).val

end Cert.KernelIdeal.KV

end
-- ==== Proof.TailDefs.lean ====
/-
  The host operations after the region, as two functions of the region's two result arrays: the first result is the
  sum of the two cores' totals divided by 2^24; the second the sum of the two cores' 8 × 8 tables, laid out as 64
  labels (label 8 h + l from cell (h, l)), each divided by 2^24.
-/
import proofs.«417527_j89910845375274_3_alg».proof.Proof.KDefs

noncomputable section

namespace Cert.KernelIdeal.KV

open Cert.KernelIdeal Cert.KernelIdeal.Gen
open Idealize.ShloMosaic

/-- The first result from the per-core totals. -/
def lossOf (sx : Vec Ideal S2x1x1 .f32) : Vec Ideal S_ .f32 :=
  Host.divf (F := Ideal)
    (Host.reduceAdd (F := Ideal) sx (constant (F := Ideal) S_ .f32 0x00000000#32) reducesTo_S2x1x1_S_d0_1_2 h_S_)
    (constant (F := Ideal) S_ .f32 0x4B800000#32)

/-- The second result from the per-core tables. -/
def labelsOf (lb : Vec Ideal S2x1x8x8 .f32) : Vec Ideal S64 .f32 :=
  Host.divf (F := Ideal)
    (shapeCast S64
      (Host.reduceAdd (F := Ideal) lb (constant (F := Ideal) S_ .f32 0x00000000#32) reducesTo_S2x1x8x8_S1x8x8_d0 h_S_)
      shapeCasts_S1x8x8_S64)
    (broadcastInDim S64 ![] bcast_S_S64 (constant (F := Ideal) S_ .f32 0x4B800000#32))

end Cert.KernelIdeal.KV

end
-- ==== Proof.Final.lean ====
/-
  The kernel's run, read.  Output 5's block (c, 0, 0) and output 6's block (c, 0, :, :) are written back once per
  core, after the core's last point (points 31 and 63); if the staging buffers then hold the sums over the core's 32
  blocks (the accumulation over the grid, taken here as a hypothesis), the two result arrays of the region end at the
  per-core totals and tables — the two blocks of each output cover its array —, and the ten host operations after
  the region compute the two results from those arrays.
-/
import proofs.«417527_j89910845375274_3_alg».proof.Proof.KDefs
import proofs.«417527_j89910845375274_3_alg».proof.Proof.TailDefs
import Idealize.ShloMosaic.Lib.Pipeline.Value
import Idealize.ShloMosaic.Lib.StableHlo.Run

noncomputable section

namespace Cert.KernelIdeal.KV

open Cert.KernelIdeal Cert.KernelIdeal.Gen Cert.Spec
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The accumulation over the grid: after point n the two outputs' staging buffers hold the sums of the totals and of
    the tables of blocks 32 (n / 32) … n. -/
def Accumulates (c : Dev nD) : Prop :=
  ∀ (n : ℕ) (h : n < cfg0.N),
    outsAt0 m c n h
      = (fun _ => ∑ s ∈ Finset.Ico (32 * (n / 32)) (n + 1), blockSumAt m c s,
         fun i => ∑ s ∈ Finset.Ico (32 * (n / 32)) (n + 1), blockHitsAt m c s (i 2).val (i 3).val)

/-- The block indices of the two outputs over the grid: core t / 32 on the leading axis, zero elsewhere. -/
private theorem index5 : ∀ t : Fin grid0.N,
    win0_5.index t 0 = t.val / 32 ∧ win0_5.index t 1 = 0 ∧ win0_5.index t 2 = 0 := by decide +kernel

private theorem index6 : ∀ t : Fin grid0.N,
    win0_6.index t 0 = t.val / 32 ∧ win0_6.index t 1 = 0 ∧ win0_6.index t 2 = 0 ∧ win0_6.index t 3 = 0 := by
  decide +kernel

/-- What a write-back of output 5 writes is its block of the per-core totals. -/
private theorem flushed5 (c : Dev nD) (hacc : Accumulates m c) (t : Fin cfg0.N) (hf : (cfg0.win 5).flush t = true) :
    (dats m 0 c).flushed 5 t = ((cfg0.win 5).blk t).view.read (Elt Ideal) (sumxArr m c) := by
  have hN : t.val < 64 := lt_of_lt_of_eq t.isLt (show cfg0.N = 64 from N_0)
  have h31 : t.val % 32 = 31 := (flush0_5 t).mp hf
  show (cfg0.win 5).cut (grid0.coords t) ((dats m 0 c).after 5 t) = _
  rw [after0_5, hacc t.val t.isLt]
  funext j
  rw [View.read_apply]
  have he : ((((cfg0.win 5).blk t).view.emb j) (0 : Fin 3) : Nat) = t.val / 32 := by
    show ((win0_5.rect t).emb j (0 : Fin 3) : Nat) = _
    rw [Pipeline.Window.rect_emb_val, (index5 t).1]
    have hj : ((j (0 : Fin 3) : Fin 1) : Nat) < 1 := (j (0 : Fin 3)).isLt
    show t.val / 32 * 1 + ((j (0 : Fin 3) : Fin 1) : Nat) = _
    omega
  have hI : Finset.Ico (32 * (t.val / 32)) (t.val + 1) = Finset.Ico (32 * (t.val / 32)) (32 * (t.val / 32) + 32) := by
    congr 1; omega
  show (∑ s ∈ Finset.Ico (32 * (t.val / 32)) (t.val + 1), blockSumAt m c s)
    = ∑ s ∈ Finset.Ico (32 * ((((cfg0.win 5).blk t).view.emb j) (0 : Fin 3)).val)
        (32 * ((((cfg0.win 5).blk t).view.emb j) (0 : Fin 3)).val + 32), blockSumAt m c s
  rw [he, hI]

/-- The first result array of the region ends at the per-core totals. -/
theorem final5 (c : Dev nD) (hacc : Accumulates m c) : (dats m 0 c).arrAt 5 cfg0.N = sumxArr m c :=
  (dats m 0 c).arrAt_eq_of_cover 5 (sumxArr m c) (flushed5 m c hacc) fun i => by
    have h0 : ((i (0 : Fin 3) : Fin 2) : Nat) < 2 := (i (0 : Fin 3)).isLt
    have h1 : ((i (1 : Fin 3) : Fin 1) : Nat) < 1 := (i (1 : Fin 3)).isLt
    have h2 : ((i (2 : Fin 3) : Fin 1) : Nat) < 1 := (i (2 : Fin 3)).isLt
    have ht : 32 * ((i (0 : Fin 3) : Fin 2) : Nat) + 31 < grid0.N := by rw [N_0]; omega
    obtain ⟨e0, e1, e2⟩ := index5 ⟨_, ht⟩
    refine ⟨⟨_, ht⟩, (flush0_5 _).mpr (by show (32 * ((i (0 : Fin 3) : Fin 2) : Nat) + 31) % 32 = 31; omega), ?_⟩
    show i ∈ ((View.whole main_v0_0).slice (win0_5.rect ⟨_, ht⟩)).set
    rw [View.set_slice_whole, Rect.mem_set_unit]
    intro a
    match a with
    | ⟨0, _⟩ =>
      show win0_5.index ⟨_, ht⟩ 0 * 1 ≤ ((i (0 : Fin 3) : Fin 2) : Nat)
        ∧ ((i (0 : Fin 3) : Fin 2) : Nat) < win0_5.index ⟨_, ht⟩ 0 * 1 + 1
      rw [e0]; dsimp only; omega
    | ⟨1, _⟩ =>
      show win0_5.index ⟨_, ht⟩ 1 * 1 ≤ ((i (1 : Fin 3) : Fin 1) : Nat)
        ∧ ((i (1 : Fin 3) : Fin 1) : Nat) < win0_5.index ⟨_, ht⟩ 1 * 1 + 1
      rw [e1]; omega
    | ⟨2, _⟩ =>
      show win0_5.index ⟨_, ht⟩ 2 * 1 ≤ ((i (2 : Fin 3) : Fin 1) : Nat)
        ∧ ((i (2 : Fin 3) : Fin 1) : Nat) < win0_5.index ⟨_, ht⟩ 2 * 1 + 1
      rw [e2]; omega

/-- What a write-back of output 6 writes is its block of the per-core tables. -/
private theorem flushed6 (c : Dev nD) (hacc : Accumulates m c) (t : Fin cfg0.N) (hf : (cfg0.win 6).flush t = true) :
    (dats m 0 c).flushed 6 t = ((cfg0.win 6).blk t).view.read (Elt Ideal) (labArr m c) := by
  have hN : t.val < 64 := lt_of_lt_of_eq t.isLt (show cfg0.N = 64 from N_0)
  have h31 : t.val % 32 = 31 := (flush0_6 t).mp hf
  show (cfg0.win 6).cut (grid0.coords t) ((dats m 0 c).after 6 t) = _
  rw [after0_6, hacc t.val t.isLt]
  funext j
  rw [View.read_apply]
  have hj0 : ((j (0 : Fin 4) : Fin 1) : Nat) < 1 := (j (0 : Fin 4)).isLt
  have he0 : ((((cfg0.win 6).blk t).view.emb j) (0 : Fin 4) : Nat) = t.val / 32 := by
    show ((win0_6.rect t).emb j (0 : Fin 4) : Nat) = _
    rw [Pipeline.Window.rect_emb_val, (index6 t).1]
    show t.val / 32 * 1 + ((j (0 : Fin 4) : Fin 1) : Nat) = _
    omega
  have he2 : ((((cfg0.win 6).blk t).view.emb j) (2 : Fin 4) : Nat) = ((j (2 : Fin 4) : Fin 8) : Nat) := by
    show ((win0_6.rect t).emb j (2 : Fin 4) : Nat) = _
    rw [Pipeline.Window.rect_emb_val, (index6 t).2.2.1]
    show 0 * 8 + ((j (2 : Fin 4) : Fin 8) : Nat) = _
    omega
  have he3 : ((((cfg0.win 6).blk t).view.emb j) (3 : Fin 4) : Nat) = ((j (3 : Fin 4) : Fin 8) : Nat) := by
    show ((win0_6.rect t).emb j (3 : Fin 4) : Nat) = _
    rw [Pipeline.Window.rect_emb_val, (index6 t).2.2.2]
    show 0 * 8 + ((j (3 : Fin 4) : Fin 8) : Nat) = _
    omega
  have hI : Finset.Ico (32 * (t.val / 32)) (t.val + 1) = Finset.Ico (32 * (t.val / 32)) (32 * (t.val / 32) + 32) := by
    congr 1; omega
  show (∑ s ∈ Finset.Ico (32 * (t.val / 32)) (t.val + 1),
      blockHitsAt m c s ((j (2 : Fin 4) : Fin 8) : Nat) ((j (3 : Fin 4) : Fin 8) : Nat))
    = ∑ s ∈ Finset.Ico (32 * ((((cfg0.win 6).blk t).view.emb j) (0 : Fin 4)).val)
        (32 * ((((cfg0.win 6).blk t).view.emb j) (0 : Fin 4)).val + 32),
        blockHitsAt m c s ((((cfg0.win 6).blk t).view.emb j) (2 : Fin 4)).val
          ((((cfg0.win 6).blk t).view.emb j) (3 : Fin 4)).val
  rw [he0, he2, he3, hI]

/-- The second ends at the per-core tables. -/
theorem final6 (c : Dev nD) (hacc : Accumulates m c) : (dats m 0 c).arrAt 6 cfg0.N = labArr m c :=
  (dats m 0 c).arrAt_eq_of_cover 6 (labArr m c) (flushed6 m c hacc) fun i => by
    have h0 : ((i (0 : Fin 4) : Fin 2) : Nat) < 2 := (i (0 : Fin 4)).isLt
    have h1 : ((i (1 : Fin 4) : Fin 1) : Nat) < 1 := (i (1 : Fin 4)).isLt
    have h2 : ((i (2 : Fin 4) : Fin 8) : Nat) < 8 := (i (2 : Fin 4)).isLt
    have h3 : ((i (3 : Fin 4) : Fin 8) : Nat) < 8 := (i (3 : Fin 4)).isLt
    have ht : 32 * ((i (0 : Fin 4) : Fin 2) : Nat) + 31 < grid0.N := by rw [N_0]; omega
    obtain ⟨e0, e1, e2, e3⟩ := index6 ⟨_, ht⟩
    refine ⟨⟨_, ht⟩, (flush0_6 _).mpr (by show (32 * ((i (0 : Fin 4) : Fin 2) : Nat) + 31) % 32 = 31; omega), ?_⟩
    show i ∈ ((View.whole main_v0_1).slice (win0_6.rect ⟨_, ht⟩)).set
    rw [View.set_slice_whole, Rect.mem_set_unit]
    intro a
    match a with
    | ⟨0, _⟩ =>
      show win0_6.index ⟨_, ht⟩ 0 * 1 ≤ ((i (0 : Fin 4) : Fin 2) : Nat)
        ∧ ((i (0 : Fin 4) : Fin 2) : Nat) < win0_6.index ⟨_, ht⟩ 0 * 1 + 1
      rw [e0]; dsimp only; omega
    | ⟨1, _⟩ =>
      show win0_6.index ⟨_, ht⟩ 1 * 1 ≤ ((i (1 : Fin 4) : Fin 1) : Nat)
        ∧ ((i (1 : Fin 4) : Fin 1) : Nat) < win0_6.index ⟨_, ht⟩ 1 * 1 + 1
      rw [e1]; omega
    | ⟨2, _⟩ =>
      show win0_6.index ⟨_, ht⟩ 2 * 8 ≤ ((i (2 : Fin 4) : Fin 8) : Nat)
        ∧ ((i (2 : Fin 4) : Fin 8) : Nat) < win0_6.index ⟨_, ht⟩ 2 * 8 + 8
      rw [e2]; omega
    | ⟨3, _⟩ =>
      show win0_6.index ⟨_, ht⟩ 3 * 8 ≤ ((i (3 : Fin 4) : Fin 8) : Nat)
        ∧ ((i (3 : Fin 4) : Fin 8) : Nat) < win0_6.index ⟨_, ht⟩ 3 * 8 + 8
      rw [e3]; omega

/-- THE KERNEL'S RUN at the ideal instance: every weakly fair execution terminates with the two results at the
    tail's functions of the per-core totals and tables, and the arguments unchanged. -/
theorem run (hacc : ∀ c, Accumulates m c) :
    θ_run (defs (F := Ideal)) (onTc (τ := τ) (main (F := Ideal))) ⟨m, fun _ => 0, ρ⟩ fun r => ∀ c : Dev nD,
      r.2.mem ((c.tc : Thread nD τ).loc main_v2) = lossOf (sumxArr m c)
      ∧ r.2.mem ((c.tc : Thread nD τ).loc main_v6) = labelsOf (labArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main (F := Ideal) m ρ)
  have e5 : Pipeline.withArrays (cfgs 0).spec c (V0 m c) (fun w => (dats m 0 c).arrAt w (cfgs 0).N)
      (Proc.devRef .tc main_v0_0) = sumxArr m c :=
    (Pipeline.withArrays_arr spec0 launch0.win.arr_inj c (V0 m c)
      (fun w => (dats m 0 c).arrAt w cfg0.N) 5).trans (final5 m c (hacc c))
  have e6 : Pipeline.withArrays (cfgs 0).spec c (V0 m c) (fun w => (dats m 0 c).arrAt w (cfgs 0).N)
      (Proc.devRef .tc main_v0_1) = labArr m c :=
    (Pipeline.withArrays_arr spec0 launch0.win.arr_inj c (V0 m c)
      (fun w => (dats m 0 c).arrAt w cfg0.N) 6).trans (final6 m c (hacc c))
  refine ⟨?_, ?_,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩
  · refine ((h c).2 main_v2 (Pipeline.mem_restRefs_of _ rfl (by decide))).trans ?_
    unfold Pipeline.afterTail₀
    show StableHlo.after hostOps1 _ (Proc.devRef .tc main_v2) = _
    after_results
    rw [e5]
    rfl
  · refine ((h c).2 main_v6 (Pipeline.mem_restRefs_of _ rfl (by decide))).trans ?_
    unfold Pipeline.afterTail₀
    show StableHlo.after hostOps1 _ (Proc.devRef .tc main_v6) = _
    after_results
    rw [e6]
    rfl

end Cert.KernelIdeal.KV

end
-- ==== Proof.Body.lean ====
/-
  What the kernel body leaves in its two outputs at one grid point, as functions of the five input blocks and of
  what the outputs held before: the body clears two scratch accumulators, walks the block in 64 chunks of 4096
  entries — adding each chunk's terms lane by lane into the first accumulator, and the chunk's 8 × 8 table of
  per-label sums into the second — and at the end adds the first accumulator's lane total into output 5 and the
  second accumulator into output 6.  Stated at any float instance; nothing is evaluated here.
-/
import proofs.«417527_j89910845375274_3_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The loop runs 64 trips. -/
theorem trips_eq : k0_t1_loop.trips = 64 := by decide

/-- Chunk k of a block: its 4096 consecutive entries from entry 4096 k on. -/
def chunk {e : EltTy} (x : Vec F S262144 e) (k : Fin k0_t1_loop.trips) : Vec F S4096 e :=
  View.ld x (Rect.unit (s := S262144) (k0_off1 k) S4096.size (k0_off1_inb k))

/-- The row coordinate and the column coordinate of the two one-hot comparisons. -/
abbrev rowIota : IVec S8x4096 32 := iota .tc S8x4096 32 [0] iota_S8x4096_d0_w32
abbrev colIota : IVec S4096x8 32 := iota .tc S4096x8 32 [1] iota_S4096x8_d1_w32

/-- The lane accumulator after k trips, from the value a it starts at: each trip adds its chunk's terms. -/
def acc9 (x0 x1 x2 x3 : Vec F S262144 .f32) (a : Vec F S4096 .f32) : ℕ → Vec F S4096 .f32
  | 0 => a
  | k + 1 => if h : k < k0_t1_loop.trips then
      k0_pay3 (chunk x0 ⟨k, h⟩) (chunk x1 ⟨k, h⟩) (chunk x2 ⟨k, h⟩) (chunk x3 ⟨k, h⟩) (acc9 x0 x1 x2 x3 a k)
    else acc9 x0 x1 x2 x3 a k

/-- The 8 × 8 table accumulator after k trips, from the value a it starts at: each trip adds its chunk's table. -/
def acc10 (x0 x1 x2 x3 : Vec F S262144 .f32) (x4 : Vec F S262144 .i32) (v11 : IVec S8x4096 32) (v12 : IVec S4096x8 32)
    (a : Vec F S8x8 .f32) : ℕ → Vec F S8x8 .f32
  | 0 => a
  | k + 1 => if h : k < k0_t1_loop.trips then
      k0_pay10 (k0_pay2 (chunk x0 ⟨k, h⟩) (chunk x1 ⟨k, h⟩) (chunk x2 ⟨k, h⟩) (chunk x3 ⟨k, h⟩))
        (k0_pay4 v11 (chunk x4 ⟨k, h⟩)) (k0_pay5 v12 (chunk x4 ⟨k, h⟩)) (acc10 x0 x1 x2 x3 x4 v11 v12 a k)
    else acc10 x0 x1 x2 x3 x4 v11 v12 a k

/-- One trip's store into the lane accumulator: the whole buffer, at the chunk's terms added to what it held. -/
theorem trip_fst (𝒱 : Variants) (c : Dev nD) (bd : Option 𝒱.V) (i : grid0.Coords) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .i32) (harg6 : arg6.IsWhole) (arg7 : Memref sig .tc .vmem S1x1x1 .f32) (harg7 : arg7.IsWhole) (arg8 : Memref sig .tc .vmem S1x1x8x8 .f32) (harg8 : arg8.IsWhole) (arg9 : Memref sig .tc .vmem S4096 .f32) (harg9 : arg9.IsWhole) (arg10 : Memref sig .tc .vmem S8x8 .f32) (harg10 : arg10.IsWhole) (v11 : IVec S8x4096 32) (v12 : IVec S4096x8 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v11 v12 X_arg2 X_arg3 X_arg4 X_arg5 X_arg6 k).1 f9 f10
      = [⟨Rect.unit (s := S4096) ![0] S4096.size inb_S4096_S4096_0,
          k0_pay3 (chunk (arg2.view.read (Elt F) X_arg2) k) (chunk (arg3.view.read (Elt F) X_arg3) k)
            (chunk (arg4.view.read (Elt F) X_arg4) k) (chunk (arg5.view.read (Elt F) X_arg5) k) (arg9.view.read (Elt F) f9)⟩] := by
  unfold trip_k0_t1
  dsimp only
  simp only [View.readAt_eq_ld, View.ld_unit_zero (S := S4096) hz1]
  rfl

/-- One trip's store into the table accumulator: the whole buffer, at the chunk's table added to what it held. -/
theorem trip_snd (𝒱 : Variants) (c : Dev nD) (bd : Option 𝒱.V) (i : grid0.Coords) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .i32) (harg6 : arg6.IsWhole) (arg7 : Memref sig .tc .vmem S1x1x1 .f32) (harg7 : arg7.IsWhole) (arg8 : Memref sig .tc .vmem S1x1x8x8 .f32) (harg8 : arg8.IsWhole) (arg9 : Memref sig .tc .vmem S4096 .f32) (harg9 : arg9.IsWhole) (arg10 : Memref sig .tc .vmem S8x8 .f32) (harg10 : arg10.IsWhole) (v11 : IVec S8x4096 32) (v12 : IVec S4096x8 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v11 v12 X_arg2 X_arg3 X_arg4 X_arg5 X_arg6 k).2.1 f9 f10
      = [⟨Rect.unit (s := S8x8) ![0, 0] S8x8.size inb_S8x8_S8x8_0_0,
          k0_pay10 (k0_pay2 (chunk (arg2.view.read (Elt F) X_arg2) k) (chunk (arg3.view.read (Elt F) X_arg3) k)
              (chunk (arg4.view.read (Elt F) X_arg4) k) (chunk (arg5.view.read (Elt F) X_arg5) k))
            (k0_pay4 v11 (chunk (arg6.view.read (Elt F) X_arg6) k)) (k0_pay5 v12 (chunk (arg6.view.read (Elt F) X_arg6) k))
            (arg10.view.read (Elt F) f10)⟩] := by
  unfold trip_k0_t1
  dsimp only
  simp only [View.readAt_eq_ld, View.ld_unit_zero (S := S8x8) hz2]
  rfl

/-- A whole-buffer store read back is its payload, whatever was there. -/
theorem read_store1 (v : View sig .tc .vmem S4096 .f32) (f : v.ty.Contents (Elt F)) (w : Vec F S4096 .f32) :
    v.read (Elt F) (v.writes (Elt F) f [⟨Rect.unit (s := S4096) ![0] S4096.size inb_S4096_S4096_0, w⟩]) = w := by
  rw [View.read_writes_eq_canon _ _ _ (fun y => ⟨_, List.mem_singleton_self _, View.mem_set_unit_zero hz1 inb_S4096_S4096_0 y⟩),
    View.canon_unit_zero hz1]

theorem read_store2 (v : View sig .tc .vmem S8x8 .f32) (f : v.ty.Contents (Elt F)) (w : Vec F S8x8 .f32) :
    v.read (Elt F) (v.writes (Elt F) f [⟨Rect.unit (s := S8x8) ![0, 0] S8x8.size inb_S8x8_S8x8_0_0, w⟩]) = w := by
  rw [View.read_writes_eq_canon _ _ _ (fun y => ⟨_, List.mem_singleton_self _, View.mem_set_unit_zero hz2 inb_S8x8_S8x8_0_0 y⟩),
    View.canon_unit_zero hz2]

/-- THE LOOP: after k trips the two accumulators hold the k-fold recurrences from what they held at entry. -/
theorem fold (𝒱 : Variants) (c : Dev nD) (bd : Option 𝒱.V) (i : grid0.Coords) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .i32) (harg6 : arg6.IsWhole) (arg7 : Memref sig .tc .vmem S1x1x1 .f32) (harg7 : arg7.IsWhole) (arg8 : Memref sig .tc .vmem S1x1x8x8 .f32) (harg8 : arg8.IsWhole) (arg9 : Memref sig .tc .vmem S4096 .f32) (harg9 : arg9.IsWhole) (arg10 : Memref sig .tc .vmem S8x8 .f32) (harg10 : arg10.IsWhole) (v11 : IVec S8x4096 32) (v12 : IVec S4096x8 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg9 : BufTy.Contents (Elt F) arg9.view.ty) (G_arg10 : BufTy.Contents (Elt F) arg10.view.ty) (k : ℕ) :
    arg9.view.read (Elt F) (arg9.view.writes (Elt F) G_arg9 (pb_k0_t1 (F := F) 𝒱 c bd i arg2 harg2 arg3 harg3 arg4 harg4 arg5 harg5 arg6 harg6 arg7 harg7 arg8 harg8 arg9 harg9 arg10 harg10 v11 v12 X_arg2 X_arg3 X_arg4 X_arg5 X_arg6 G_arg9 G_arg10 k).1)
        = acc9 (arg2.view.read (Elt F) X_arg2) (arg3.view.read (Elt F) X_arg3) (arg4.view.read (Elt F) X_arg4)
            (arg5.view.read (Elt F) X_arg5) (arg9.view.read (Elt F) G_arg9) k
      ∧ arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 v11 v12 X_arg2 X_arg3 X_arg4 X_arg5 X_arg6 G_arg9 G_arg10 k).2)
        = acc10 (arg2.view.read (Elt F) X_arg2) (arg3.view.read (Elt F) X_arg3) (arg4.view.read (Elt F) X_arg4)
            (arg5.view.read (Elt F) X_arg5) (arg6.view.read (Elt F) X_arg6) v11 v12 (arg10.view.read (Elt F) G_arg10) k := by
  induction k with
  | zero => exact ⟨rfl, rfl⟩
  | succ k ih =>
    by_cases h : k < k0_t1_loop.trips
    · have e := pb_k0_t1_succ (F := F) 𝒱 c bd i arg2 harg2 arg3 harg3 arg4 harg4 arg5 harg5 arg6 harg6 arg7 harg7 arg8 harg8 arg9 harg9 arg10 harg10 v11 v12 X_arg2 X_arg3 X_arg4 X_arg5 X_arg6 G_arg9 G_arg10 ⟨k, h⟩
      dsimp only at e
      rw [e]
      dsimp only [tripL_k0_t1]
      rw [View.writes_append, View.writes_append, trip_fst, trip_snd, read_store1, read_store2, ih.1, ih.2]
      refine ⟨?_, ?_⟩
      · simp only [acc9, dif_pos h]
      · simp only [acc10, dif_pos h]
    · rw [pb_k0_t1.eq_2]
      unfold pb_k0_t1Step
      rw [dif_neg h]
      simp only [acc9, acc10, dif_neg h]
      exact ih

end Cert.KernelIdeal.Body

end
-- ==== Proof.BodyOut.lean ====
/-
  The two outputs after the body at one grid point, in the two cases of its conditional: at a core's first point the
  outputs are cleared first, at a later point they keep what the point before left; then the 64-trip loop runs from
  cleared accumulators and its results are added in.
-/
import proofs.«417527_j89910845375274_3_alg».proof.Proof.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

set_option maxHeartbeats 1600000 in
/-- At a core's first point: output 5 ends at the cleared value plus the block's lane total. -/
theorem out_A_5 (c : Dev nD) (i : grid0.Coords) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .i32) (harg6 : arg6.IsWhole) (arg7 : Memref sig .tc .vmem S1x1x1 .f32) (harg7 : arg7.IsWhole) (arg8 : Memref sig .tc .vmem S1x1x8x8 .f32) (harg8 : arg8.IsWhole) (arg9 : Memref sig .tc .vmem S4096 .f32) (harg9 : arg9.IsWhole) (arg10 : Memref sig .tc .vmem S8x8 .f32) (harg10 : arg10.IsWhole) (hc0 : cond0_0 i) (x0 : Vec F S262144 .f32) (x1 : Vec F S262144 .f32) (x2 : Vec F S262144 .f32) (x3 : Vec F S262144 .f32) (x4 : Vec F S262144 .i32) :
    out0_A_5 c i arg2 harg2 arg3 harg3 arg4 harg4 arg5 harg5 arg6 harg6 arg7 harg7 arg8 harg8 arg9 harg9 arg10 harg10 hc0 x0 x1 x2 x3 x4 = k0_pay11 (acc9 x0 x1 x2 x3 k0_pay8 k0_t1_loop.trips) k0_pay6 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  have hT : Scf.trips k0_t1_loop.lb k0_t1_loop.ub k0_t1_loop.st = k0_t1_loop.trips := rfl
  rw [hT]
  generalize k0_t1_loop.trips = T
  have hf := fold (F := F) Variants.none c none i arg2 harg2 arg3 harg3 arg4 harg4 arg5 harg5 arg6 harg6 arg7 harg7 arg8 harg8 arg9 harg9 arg10 harg10 rowIota colIota
    (harg2.unread x0) (harg3.unread x1) (harg4.unread x2) (harg5.unread x3) (harg6.unread x4)
    (arg9.view.writes (Elt F) arg9.view.junk [⟨Rect.unit (s := S4096) ![0] S4096.size inb_S4096_S4096_0, k0_pay8⟩])
    (arg10.view.writes (Elt F) arg10.view.junk [⟨Rect.unit (s := S8x8) ![0, 0] S8x8.size inb_S8x8_S8x8_0_0, k0_pay9⟩])
    T
  simp only [harg2.read_unread, harg3.read_unread, harg4.read_unread, harg5.read_unread, harg6.read_unread] at hf
  rw [View.canon_cons_unit_zero (S := S1x1x1) hz3]
  simp only [View.readAt_eq_ld, View.ld_unit_zero (S := S4096) hz1, View.ld_unit_zero (S := S8x8) hz2,
    View.ld_unit_zero (S := S1x1x1) hz3, View.ld_unit_zero (S := S1x1x8x8) hz4, View.writes_append,
    View.readCov_unit_zero (S := S1x1x1) _ hz3, View.readCov_unit_zero (S := S1x1x8x8) _ hz4,
    harg7.read_unread, harg8.read_unread]
  rw [hf.1, read_store1]

set_option maxHeartbeats 1600000 in
/-- At a core's first point: output 6 ends at the cleared table plus the block's table. -/
theorem out_A_6 (c : Dev nD) (i : grid0.Coords) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .i32) (harg6 : arg6.IsWhole) (arg7 : Memref sig .tc .vmem S1x1x1 .f32) (harg7 : arg7.IsWhole) (arg8 : Memref sig .tc .vmem S1x1x8x8 .f32) (harg8 : arg8.IsWhole) (arg9 : Memref sig .tc .vmem S4096 .f32) (harg9 : arg9.IsWhole) (arg10 : Memref sig .tc .vmem S8x8 .f32) (harg10 : arg10.IsWhole) (hc0 : cond0_0 i) (x0 : Vec F S262144 .f32) (x1 : Vec F S262144 .f32) (x2 : Vec F S262144 .f32) (x3 : Vec F S262144 .f32) (x4 : Vec F S262144 .i32) :
    out0_A_6 c i arg2 harg2 arg3 harg3 arg4 harg4 arg5 harg5 arg6 harg6 arg7 harg7 arg8 harg8 arg9 harg9 arg10 harg10 hc0 x0 x1 x2 x3 x4 = k0_pay1 (k0_pay12 k0_pay7) (acc10 x0 x1 x2 x3 x4 rowIota colIota k0_pay9 k0_t1_loop.trips) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  have hT : Scf.trips k0_t1_loop.lb k0_t1_loop.ub k0_t1_loop.st = k0_t1_loop.trips := rfl
  rw [hT]
  generalize k0_t1_loop.trips = T
  have hf := fold (F := F) Variants.none c none i arg2 harg2 arg3 harg3 arg4 harg4 arg5 harg5 arg6 harg6 arg7 harg7 arg8 harg8 arg9 harg9 arg10 harg10 rowIota colIota
    (harg2.unread x0) (harg3.unread x1) (harg4.unread x2) (harg5.unread x3) (harg6.unread x4)
    (arg9.view.writes (Elt F) arg9.view.junk [⟨Rect.unit (s := S4096) ![0] S4096.size inb_S4096_S4096_0, k0_pay8⟩])
    (arg10.view.writes (Elt F) arg10.view.junk [⟨Rect.unit (s := S8x8) ![0, 0] S8x8.size inb_S8x8_S8x8_0_0, k0_pay9⟩])
    T
  simp only [harg2.read_unread, harg3.read_unread, harg4.read_unread, harg5.read_unread, harg6.read_unread] at hf
  rw [View.canon_cons_unit_zero (S := S1x1x8x8) hz4]
  simp only [View.readAt_eq_ld, View.ld_unit_zero (S := S4096) hz1, View.ld_unit_zero (S := S8x8) hz2,
    View.ld_unit_zero (S := S1x1x1) hz3, View.ld_unit_zero (S := S1x1x8x8) hz4, View.writes_append,
    View.readCov_unit_zero (S := S1x1x1) _ hz3, View.readCov_unit_zero (S := S1x1x8x8) _ hz4,
    harg7.read_unread, harg8.read_unread]
  rw [hf.2, read_store2]

set_option maxHeartbeats 1600000 in
/-- At a later point: output 5 ends at what it held plus the block's lane total. -/
theorem out_B_5 (c : Dev nD) (i : grid0.Coords) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .i32) (harg6 : arg6.IsWhole) (arg7 : Memref sig .tc .vmem S1x1x1 .f32) (harg7 : arg7.IsWhole) (arg8 : Memref sig .tc .vmem S1x1x8x8 .f32) (harg8 : arg8.IsWhole) (arg9 : Memref sig .tc .vmem S4096 .f32) (harg9 : arg9.IsWhole) (arg10 : Memref sig .tc .vmem S8x8 .f32) (harg10 : arg10.IsWhole) (hc0 : ¬cond0_0 i) (x0 : Vec F S262144 .f32) (x1 : Vec F S262144 .f32) (x2 : Vec F S262144 .f32) (x3 : Vec F S262144 .f32) (x4 : Vec F S262144 .i32) (xo5 : Vec F S1x1x1 .f32) (xo6 : Vec F S1x1x8x8 .f32) :
    out0_B_5 c i arg2 harg2 arg3 harg3 arg4 harg4 arg5 harg5 arg6 harg6 arg7 harg7 arg8 harg8 arg9 harg9 arg10 harg10 hc0 x0 x1 x2 x3 x4 xo5 xo6 = k0_pay11 (acc9 x0 x1 x2 x3 k0_pay8 k0_t1_loop.trips) xo5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xo5 xo6)]
  unfold kernelRun0_B
  dsimp only
  sl_unfold_words
  have hT : Scf.trips k0_t1_loop.lb k0_t1_loop.ub k0_t1_loop.st = k0_t1_loop.trips := rfl
  rw [hT]
  generalize k0_t1_loop.trips = T
  have hf := fold (F := F) Variants.none c none i arg2 harg2 arg3 harg3 arg4 harg4 arg5 harg5 arg6 harg6 arg7 harg7 arg8 harg8 arg9 harg9 arg10 harg10 rowIota colIota
    (harg2.unread x0) (harg3.unread x1) (harg4.unread x2) (harg5.unread x3) (harg6.unread x4)
    (arg9.view.writes (Elt F) arg9.view.junk [⟨Rect.unit (s := S4096) ![0] S4096.size inb_S4096_S4096_0, k0_pay8⟩])
    (arg10.view.writes (Elt F) arg10.view.junk [⟨Rect.unit (s := S8x8) ![0, 0] S8x8.size inb_S8x8_S8x8_0_0, k0_pay9⟩])
    T
  simp only [harg2.read_unread, harg3.read_unread, harg4.read_unread, harg5.read_unread, harg6.read_unread] at hf
  rw [View.canon_cons_unit_zero (S := S1x1x1) hz3]
  simp only [View.readAt_eq_ld, View.ld_unit_zero (S := S4096) hz1, View.ld_unit_zero (S := S8x8) hz2,
    View.ld_unit_zero (S := S1x1x1) hz3, View.ld_unit_zero (S := S1x1x8x8) hz4, View.writes_append,
    View.readCov_unit_zero (S := S1x1x1) _ hz3, View.readCov_unit_zero (S := S1x1x8x8) _ hz4,
    harg7.read_unread, harg8.read_unread]
  rw [hf.1, read_store1]

set_option maxHeartbeats 1600000 in
/-- At a later point: output 6 ends at what it held plus the block's table. -/
theorem out_B_6 (c : Dev nD) (i : grid0.Coords) (arg2 : Memref sig .tc .vmem S262144 .f32) (harg2 : arg2.IsWhole) (arg3 : Memref sig .tc .vmem S262144 .f32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .i32) (harg6 : arg6.IsWhole) (arg7 : Memref sig .tc .vmem S1x1x1 .f32) (harg7 : arg7.IsWhole) (arg8 : Memref sig .tc .vmem S1x1x8x8 .f32) (harg8 : arg8.IsWhole) (arg9 : Memref sig .tc .vmem S4096 .f32) (harg9 : arg9.IsWhole) (arg10 : Memref sig .tc .vmem S8x8 .f32) (harg10 : arg10.IsWhole) (hc0 : ¬cond0_0 i) (x0 : Vec F S262144 .f32) (x1 : Vec F S262144 .f32) (x2 : Vec F S262144 .f32) (x3 : Vec F S262144 .f32) (x4 : Vec F S262144 .i32) (xo5 : Vec F S1x1x1 .f32) (xo6 : Vec F S1x1x8x8 .f32) :
    out0_B_6 c i arg2 harg2 arg3 harg3 arg4 harg4 arg5 harg5 arg6 harg6 arg7 harg7 arg8 harg8 arg9 harg9 arg10 harg10 hc0 x0 x1 x2 x3 x4 xo5 xo6 = k0_pay1 (k0_pay12 xo6) (acc10 x0 x1 x2 x3 x4 rowIota colIota k0_pay9 k0_t1_loop.trips) := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 xo5 xo6)]
  unfold kernelRun0_B
  dsimp only
  sl_unfold_words
  have hT : Scf.trips k0_t1_loop.lb k0_t1_loop.ub k0_t1_loop.st = k0_t1_loop.trips := rfl
  rw [hT]
  generalize k0_t1_loop.trips = T
  have hf := fold (F := F) Variants.none c none i arg2 harg2 arg3 harg3 arg4 harg4 arg5 harg5 arg6 harg6 arg7 harg7 arg8 harg8 arg9 harg9 arg10 harg10 rowIota colIota
    (harg2.unread x0) (harg3.unread x1) (harg4.unread x2) (harg5.unread x3) (harg6.unread x4)
    (arg9.view.writes (Elt F) arg9.view.junk [⟨Rect.unit (s := S4096) ![0] S4096.size inb_S4096_S4096_0, k0_pay8⟩])
    (arg10.view.writes (Elt F) arg10.view.junk [⟨Rect.unit (s := S8x8) ![0, 0] S8x8.size inb_S8x8_S8x8_0_0, k0_pay9⟩])
    T
  simp only [harg2.read_unread, harg3.read_unread, harg4.read_unread, harg5.read_unread, harg6.read_unread] at hf
  rw [View.canon_cons_unit_zero (S := S1x1x8x8) hz4]
  simp only [View.readAt_eq_ld, View.ld_unit_zero (S := S4096) hz1, View.ld_unit_zero (S := S8x8) hz2,
    View.ld_unit_zero (S := S1x1x1) hz3, View.ld_unit_zero (S := S1x1x8x8) hz4, View.writes_append,
    View.readCov_unit_zero (S := S1x1x1) _ hz3, View.readCov_unit_zero (S := S1x1x8x8) _ hz4,
    harg7.read_unread, harg8.read_unread]
  rw [hf.2, read_store2]

end Cert.KernelIdeal.Body

end
-- ==== Proof.Algebra.lean ====
/-
  Arithmetic that belongs to no program: the term of finite inputs is finite; a label word falls in cell (h, l) of
  the 8 × 8 table exactly when it is the number 8 h + l; and a sum over all 2^24 elements is the sum, over the two
  cores, over a core's 32 blocks, over a block's 262144 entries.
-/
import proofs.«417527_j89910845375274_3_alg».proof.Proof.Spec
import Mathlib.Algebra.BigOperators.Intervals

noncomputable section

namespace Cert.Spec

open Idealize.ShloMosaic Idealize.ShloMosaic.ValueIdx
open scoped BigOperators

/-- The coercion of the reals into the extended reals commutes with the maximum. -/
private theorem coe_max_real (a b : ℝ) : max (a : EReal) (b : EReal) = ((max a b : ℝ) : EReal) :=
  (EReal.coe_strictMono.monotone.map_max (a := a) (b := b)).symm

/-- The word of 2.0 denotes the real number two. -/
private theorem ofBits_two_f32 : Ideal.ofBits .f32 0x40000000#32 = ((2 : ℝ) : EReal) := by
  simp [Ideal.ofBits, Ideal.ieee, -EReal.coe_mul]; norm_num

/-- The term of four real numbers is a real number. -/
theorem pt_real (o y wl w : ℝ) : ∃ r : ℝ, pt (o : EReal) (y : EReal) (wl : EReal) (w : EReal) = (r : EReal) := by
  unfold pt
  -- |y - o| is the coercion of a real; the doubled value too; either branch times w is a real.
  have habs : max ((y : EReal) - (o : EReal)) (-((y : EReal) - (o : EReal)))
      = ((max (y - o) (-(y - o)) : ℝ) : EReal) := by
    rw [← EReal.coe_sub, ← EReal.coe_neg, coe_max_real]
  rw [habs, ofBits_two_f32]
  unfold Scalar.select
  split
  · split
    · exact ⟨_, (EReal.coe_mul _ _).symm⟩
    · rw [← EReal.coe_mul, ← EReal.coe_mul]; exact ⟨_, rfl⟩
  · exact ⟨_, (EReal.coe_mul _ _).symm⟩

/-- An array of real entries read at a natural number gives a real number (zero past the end). -/
private theorem atNat_real {n : ℕ} (a : (⟨1, ![n]⟩ : Shape).Idx → EReal)
    (h : ∀ i, ∃ r : ℝ, a i = (r : EReal)) (k : ℕ) : ∃ r : ℝ, atNat a k = (r : EReal) := by
  unfold atNat
  split
  · exact h _
  · exact ⟨0, rfl⟩

/-- So the term at any position of four arrays of real entries is a real number. -/
theorem term_real {n : ℕ} (a0 a1 a2 a3 : (⟨1, ![n]⟩ : Shape).Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) (k : ℕ) :
    ∃ r : ℝ, term a0 a1 a2 a3 k = (r : EReal) := by
  obtain ⟨r0, e0⟩ := atNat_real a0 h0 k
  obtain ⟨r1, e1⟩ := atNat_real a1 h1 k
  obtain ⟨r2, e2⟩ := atNat_real a2 h2 k
  obtain ⟨r3, e3⟩ := atNat_real a3 h3 k
  unfold term
  rw [e0, e1, e2, e3]
  exact pt_real r0 r1 r2 r3

/-- A label word falls in cell (h, l), h and l below 8, exactly when it is the number 8 h + l. -/
theorem hit_iff (b : BitVec 32) (h l : ℕ) (hh : h < 8) (hl : l < 8) :
    hit b h l ↔ b.toInt = ((8 * h + l : ℕ) : ℤ) := by
  unfold hit IntOp.shrsi IntOp.andi
  -- the shift amount 3 is below the width, so the shift is the arithmetic one:
  -- its signed value is ⌊b / 8⌋; the mask leaves the unsigned value modulo 8.
  have h3 : (3#32 : BitVec 32).toNat < 32 := by decide
  rw [if_pos h3, ← BitVec.toInt_inj, BitVec.toInt_sshiftRight', ← BitVec.toNat_inj, BitVec.toNat_and]
  have e3 : (3#32 : BitVec 32).toNat = 3 := by decide
  have e7 : (7#32 : BitVec 32).toNat = 2 ^ 3 - 1 := by decide
  rw [e3, e7, Nat.and_two_pow_sub_one_eq_mod, Int.shiftRight_eq_div_pow, BitVec.toInt_ofNat',
    BitVec.toNat_ofNat, BitVec.toInt_eq_toNat_cond]
  have hb := b.isLt
  have hhm : ((h : ℤ)).bmod (2 ^ 32) = h := by
    rw [Int.bmod_def]; omega
  rw [hhm]
  split <;> omega

/-- Sums over a blocks of b consecutive entries each are the sum over the first a b naturals. -/
private theorem sum_range_blocks {M : Type*} [AddCommMonoid M] (f : ℕ → M) (a b : ℕ) :
    ∑ i ∈ Finset.range a, ∑ j ∈ Finset.range b, f (i * b + j) = ∑ n ∈ Finset.range (a * b), f n := by
  induction a with
  | zero => simp
  | succ a ih => rw [Finset.sum_range_succ, ih, Nat.succ_mul, Finset.sum_range_add]

/-- A block's 262144 entries are its 64 chunks of 4096 lanes. -/
theorem sum_block_chunks {M : Type*} [AddCommMonoid M] (f : ℕ → M) :
    ∑ k ∈ Finset.range 64, ∑ j ∈ Finset.range 4096, f (k * 4096 + j) = ∑ n ∈ Finset.range 262144, f n :=
  sum_range_blocks f 64 4096

/-- All 2^24 elements are the two cores' 32 blocks of 262144 entries each. -/
theorem sum_blocks {M : Type*} [AddCommMonoid M] (f : ℕ → M) :
    ∑ c ∈ Finset.range 2, ∑ s ∈ Finset.Ico (32 * c) (32 * c + 32), ∑ n ∈ Finset.range 262144, f (s * 262144 + n)
      = ∑ n ∈ Finset.range 16777216, f n := by
  -- a core's blocks 32 c ≤ s < 32 c + 32 are s = c * 32 + s' with s' < 32
  have hcore : ∀ c : ℕ, ∑ s ∈ Finset.Ico (32 * c) (32 * c + 32), ∑ n ∈ Finset.range 262144, f (s * 262144 + n)
      = ∑ s ∈ Finset.range 32, ∑ n ∈ Finset.range 262144, f ((c * 32 + s) * 262144 + n) := by
    intro c
    rw [Finset.sum_Ico_eq_sum_range, Nat.add_sub_cancel_left, Nat.mul_comm 32 c]
  simp only [hcore]
  rw [sum_range_blocks (fun s => ∑ n ∈ Finset.range 262144, f (s * 262144 + n)) 2 32,
    sum_range_blocks f (2 * 32) 262144]

end Cert.Spec

end
-- ==== Proof.LaneSum.lean ====
/-
  The first output at the ideal instance.  A chunk is 4096 consecutive entries of a block; a trip adds the chunk's
  terms, lane by lane, to the lane accumulator, which starts at zero; so after the 64 trips lane j holds the sum over
  the chunks k of the term at entry 4096 k + j, and the total over the lanes — which the body adds to what output 5
  held — is the sum of the block's 262144 terms.  Sums of extended reals re-associate and commute freely, so no
  finiteness is needed here.
-/
import proofs.«417527_j89910845375274_3_alg».proof.Proof.Body
import proofs.«417527_j89910845375274_3_alg».proof.Proof.Spec
import proofs.«417527_j89910845375274_3_alg».proof.Proof.Algebra
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.LaneSum

open Cert.KernelIdeal Cert.KernelIdeal.Gen Cert.KernelIdeal.Body Cert.Spec
open Idealize.ShloMosaic Idealize.ShloMosaic.ValueIdx
open scoped BigOperators

/-- A chunk's entry j is the block's entry 4096 k + j. -/
theorem chunk_apply {e : EltTy} (x : Vec Ideal S262144 e) (k : Fin k0_t1_loop.trips) (j : S4096.Idx)
    (h : k.val * 4096 + (j 0).val < 262144) :
    chunk (F := Ideal) x k j = x (ix1 ⟨k.val * 4096 + (j 0).val, h⟩) := by
  unfold chunk
  -- a load through a unit-stride rectangle reads the block at offset + 1 * local coordinate
  show x ((Rect.unit (s := S262144) (k0_off1 k) S4096.size (k0_off1_inb k)).idx j) = _
  refine congrArg x (funext fun a => Fin.ext ?_)
  match a with
  | ⟨0, _⟩ =>
    show k0_off1 k 0 + 1 * (j 0).val = k.val * 4096 + (j 0).val
    rw [k0_off1_eq k]
    show 4096 * k.val + 1 * (j 0).val = k.val * 4096 + (j 0).val
    omega

/-- The body's elementwise arithmetic is pointwise, and at lane j it is the term's formula on the four lanes. -/
private theorem pay2_pt (c0 c1 c2 c3 : Vec Ideal S4096 .f32) (j : S4096.Idx) :
    k0_pay2 (F := Ideal) c0 c1 c2 c3 j = pt (c0 j) (c1 j) (c2 j) (c3 j) := rfl

/-- Entry 4096 k + j of a block lies inside it: k is below 64 and j below 4096. -/
private theorem entry_lt (k : Fin k0_t1_loop.trips) (j : S4096.Idx) : k.val * 4096 + (j 0).val < 262144 := by
  have hk : k.val < 64 := lt_of_lt_of_eq k.isLt trips_eq
  have hj : (j 0).val < 4096 := (j 0).isLt
  omega

/-- The body's elementwise arithmetic on a chunk is the term: lane j of chunk k carries the term of entry 4096 k + j. -/
theorem pay2_apply (x0 x1 x2 x3 : Vec Ideal S262144 .f32) (k : Fin k0_t1_loop.trips) (j : S4096.Idx) :
    k0_pay2 (F := Ideal) (chunk (F := Ideal) x0 k) (chunk (F := Ideal) x1 k) (chunk (F := Ideal) x2 k)
        (chunk (F := Ideal) x3 k) j
      = term x0 x1 x2 x3 (k.val * 4096 + (j 0).val) := by
  have hb := entry_lt k j
  rw [pay2_pt, chunk_apply x0 k j hb, chunk_apply x1 k j hb, chunk_apply x2 k j hb, chunk_apply x3 k j hb]
  unfold term
  rw [atNat_of_lt x0 hb, atNat_of_lt x1 hb, atNat_of_lt x2 hb, atNat_of_lt x3 hb]

/-- The value the lane accumulator is cleared to is zero at every lane. -/
private theorem pay8_apply (j : S4096.Idx) : k0_pay8 (F := Ideal) j = 0 := by
  unfold k0_pay8
  rw [shapeCast_self]
  show Ideal.ofBits .f32 0x00000000#32 = 0
  exact Ideal.ofBits_zero_f32

/-- One trip's new accumulator at lane j: what it held there plus the chunk's arithmetic there. -/
private theorem pay3_apply (c0 c1 c2 c3 a : Vec Ideal S4096 .f32) (j : S4096.Idx) :
    k0_pay3 (F := Ideal) c0 c1 c2 c3 a j = a j + k0_pay2 (F := Ideal) c0 c1 c2 c3 j := by
  unfold k0_pay3
  rw [shapeCast_self]
  rfl

/-- The lane accumulator after n trips (n at most 64), from zero: lane j holds the sum over the chunks before n. -/
theorem acc9_apply (x0 x1 x2 x3 : Vec Ideal S262144 .f32) (n : ℕ) (hn : n ≤ 64) (j : S4096.Idx) :
    acc9 (F := Ideal) x0 x1 x2 x3 (k0_pay8 (F := Ideal)) n j
      = ∑ k ∈ Finset.range n, term x0 x1 x2 x3 (k * 4096 + (j 0).val) := by
  induction n with
  | zero =>
    rw [Finset.sum_range_zero]
    show k0_pay8 (F := Ideal) j = 0
    exact pay8_apply j
  | succ n ih =>
    have hlt : n < k0_t1_loop.trips := by rw [trips_eq]; omega
    have step : acc9 (F := Ideal) x0 x1 x2 x3 (k0_pay8 (F := Ideal)) (n + 1)
        = k0_pay3 (F := Ideal) (chunk x0 ⟨n, hlt⟩) (chunk x1 ⟨n, hlt⟩) (chunk x2 ⟨n, hlt⟩) (chunk x3 ⟨n, hlt⟩)
            (acc9 (F := Ideal) x0 x1 x2 x3 (k0_pay8 (F := Ideal)) n) := by
      rw [acc9, dif_pos hlt]
    rw [Finset.sum_range_succ, ← ih (by omega), step, pay3_apply, pay2_apply]

/-- The sum over the lanes of a lane vector, as the body takes it: viewed as one row, reduced along the row. -/
private theorem laneTotal (a : Vec Ideal S4096 .f32) (j' : S1.Idx) :
    multiReduction (F := Ideal) FKind.add [1] S1 (shapeCast S1x4096 a shapeCasts_S4096_S1x4096) (0#32)
        reduces_S1x4096_S1 (.inl rfl) rfl j'
      = ∑ k : Fin 4096, a (ix1 k) := by
  refine (Ideal.multiReduction_add_single _ _ reduces_S1x4096_S1 _ _ j').trans ?_
  refine Finset.sum_congr rfl fun k _ => ?_
  refine shapeCast_apply a _ _ (ix1 k) ?_
  rw [Shape.rowMajor_val_one, Shape.rowMajor_val_two]
  show k.val = (reduces_S1x4096_S1.lift j' k 0).val * 4096 + (reduces_S1x4096_S1.lift j' k 1).val
  have h0 : (reduces_S1x4096_S1.lift j' k 0).val = (j' 0).val := rfl
  have h1 : (reduces_S1x4096_S1.lift j' k 1).val = k.val := rfl
  have hj : (j' 0).val < 1 := (j' 0).isLt
  omega

/-- The body's last value at its one index: what output 5 held plus the lane vector's total. -/
private theorem pay11_apply (a : Vec Ideal S4096 .f32) (v20 : Vec Ideal S1x1x1 .f32) (i : S1x1x1.Idx) :
    k0_pay11 (F := Ideal) a v20 i = v20 i + ∑ k : Fin 4096, a (ix1 k) := by
  unfold k0_pay11
  rw [shapeCast_self]
  show v20 i + _ = _
  congr 1
  exact laneTotal a _

/-- Output 5 after the body: what it held plus the sum of the block's terms. -/
theorem total_eq (x0 x1 x2 x3 : Vec Ideal S262144 .f32) (v20 : Vec Ideal S1x1x1 .f32) :
    k0_pay11 (F := Ideal) (acc9 (F := Ideal) x0 x1 x2 x3 (k0_pay8 (F := Ideal)) k0_t1_loop.trips) v20
      = fun i => v20 i + blockSum x0 x1 x2 x3 := by
  -- lane k of the accumulator after the 64 trips is the sum over the chunks; the lanes' total, with the two sums
  -- exchanged, is the sum over the block's 64 chunks of 4096 entries
  funext i
  rw [pay11_apply, trips_eq]
  refine congrArg (fun z => v20 i + z) ?_
  show ∑ k : Fin 4096, acc9 (F := Ideal) x0 x1 x2 x3 (k0_pay8 (F := Ideal)) 64 (ix1 k)
      = ∑ n ∈ Finset.range 262144, term x0 x1 x2 x3 n
  rw [← sum_block_chunks (term x0 x1 x2 x3), Finset.sum_comm,
    Finset.sum_range (fun k => ∑ c ∈ Finset.range 64, term x0 x1 x2 x3 (c * 4096 + k))]
  exact Finset.sum_congr rfl fun k _ => acc9_apply x0 x1 x2 x3 64 (le_refl 64) (ix1 k)

/-- The value output 5 is cleared to is zero. -/
theorem pay6_zero : (k0_pay6 (F := Ideal)) = fun _ => (0 : EReal) := by
  funext i
  show Ideal.ofBits .f32 0x00000000#32 = 0
  exact Ideal.ofBits_zero_f32

end Cert.KernelIdeal.LaneSum

end
-- ==== Proof.TableSum.lean ====
/-
  The second output at the ideal instance.  For a chunk the body builds two one-hot matrices from the label words —
  row h of the first is 1 exactly on the lanes whose label's arithmetic shift right by three is h, column l of the
  second exactly on the lanes whose label's low three bits are l — scales the second by the lanes' terms, and
  multiplies: cell (h, l) of the product is the sum of the terms of the lanes whose label falls in that cell.  The
  body does this twice, once with the terms and once with the terms minus themselves; the terms being finite, that
  difference is zero and the second product vanishes.  The 64 trips add up to the block's 8 × 8 table, which the body
  adds to what output 6 held.
-/
import proofs.«417527_j89910845375274_3_alg».proof.Proof.Body
import proofs.«417527_j89910845375274_3_alg».proof.Proof.Spec
import proofs.«417527_j89910845375274_3_alg».proof.Proof.Algebra
import proofs.«417527_j89910845375274_3_alg».proof.Proof.LaneSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TableSum

open Cert.KernelIdeal Cert.KernelIdeal.Gen Cert.KernelIdeal.Body Cert.Spec
open Idealize.ShloMosaic Idealize.ShloMosaic.ValueIdx
open scoped BigOperators

open Cert.KernelIdeal.LaneSum

/-! ### Layout reads by coordinates: a column vector, and two leading unit axes -/

/-- An [a] array cast to [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (i, c), the operand's one column at i. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- An [a, b] array cast to [1, 1, a, b] reads, at (u, v, i, j), the operand at (i, j). -/
private theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-! ### The product's operand indices: rows times the contraction, the contraction times columns -/

private theorem lhs_0 (j : S8x8.Idx) (k : dot_S8x4096_S4096x8_S8x8_1_0_0_1_n_n.contr.Idx) :
    (dot_S8x4096_S4096x8_S8x8_1_0_0_1_n_n.lhsIdx j k 0 : ℕ) = j 0 := by
  simp [DotDims.lhsIdx, dot_S8x4096_S4096x8_S8x8_1_0_0_1_n_n]; rfl
private theorem lhs_1 (j : S8x8.Idx) (k : dot_S8x4096_S4096x8_S8x8_1_0_0_1_n_n.contr.Idx) :
    (dot_S8x4096_S4096x8_S8x8_1_0_0_1_n_n.lhsIdx j k 1 : ℕ) = k ⟨0, by decide⟩ := by
  simp [DotDims.lhsIdx, dot_S8x4096_S4096x8_S8x8_1_0_0_1_n_n]; rfl
private theorem rhs_0 (j : S8x8.Idx) (k : dot_S8x4096_S4096x8_S8x8_1_0_0_1_n_n.contr.Idx) :
    (dot_S8x4096_S4096x8_S8x8_1_0_0_1_n_n.rhsIdx j k 0 : ℕ) = k ⟨0, by decide⟩ := by
  simp [DotDims.rhsIdx, dot_S8x4096_S4096x8_S8x8_1_0_0_1_n_n]; rfl
private theorem rhs_1 (j : S8x8.Idx) (k : dot_S8x4096_S4096x8_S8x8_1_0_0_1_n_n.contr.Idx) :
    (dot_S8x4096_S4096x8_S8x8_1_0_0_1_n_n.rhsIdx j k 1 : ℕ) = j 1 := by
  simp [DotDims.rhsIdx, dot_S8x4096_S4096x8_S8x8_1_0_0_1_n_n]; rfl

/-- The contraction index is its one coordinate, a lane below 4096. -/
private def cE : dot_S8x4096_S4096x8_S8x8_1_0_0_1_n_n.contr.Idx ≃ Fin 4096 :=
  contrEquiv1 dot_S8x4096_S4096x8_S8x8_1_0_0_1_n_n 4096 rfl rfl

private theorem lhsIdx_eq (p q : Fin 8) (c : Fin 4096) :
    dot_S8x4096_S4096x8_S8x8_1_0_0_1_n_n.lhsIdx (ix2 p q) (cE.symm c) = ix2 p c :=
  Shape.idx_ext₂ (lhs_0 _ _) ((lhs_1 _ _).trans (contrEquiv1_symm_val _ 4096 rfl rfl c))

private theorem rhsIdx_eq (p q : Fin 8) (c : Fin 4096) :
    dot_S8x4096_S4096x8_S8x8_1_0_0_1_n_n.rhsIdx (ix2 p q) (cE.symm c) = ix2 c q :=
  Shape.idx_ext₂ ((rhs_0 _ _).trans (contrEquiv1_symm_val _ 4096 rfl rfl c)) (rhs_1 _ _)

/-- A product into the zero accumulator, read at cell (p, q): the sum over the 4096 lanes. -/
private theorem matmul_cell (A : FVec Ideal S8x4096 .bf16) (B : FVec Ideal S4096x8 .bf16) (p q : Fin 8) :
    FloatOps.matmul dot_S8x4096_S4096x8_S8x8_1_0_0_1_n_n none A B (constant S8x8 .f32 0x00000000#32) (ix2 p q)
      = ∑ c : Fin 4096, A (ix2 p c) * B (ix2 c q) := by
  rw [Ideal.matmul_constant_zero_apply, ← Equiv.sum_comp cE.symm]
  exact Finset.sum_congr rfl fun c _ => by rw [lhsIdx_eq, rhsIdx_eq]

/-! ### The two one-hot matrices and one trip's table -/

/-- The float of the widened equality bit of two words: one where they are equal, zero where not. -/
private theorem onehot_val (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · have e : IntOp.cmpi .eq x y = 1#1 := by simp [IntOp.cmpi, h]
    have e1 : ((1#1 : BitVec 1).setWidth 32).toInt = 1 := by decide
    rw [e, if_pos h, e1]; simp
  · have e : IntOp.cmpi .eq x y = 0#1 := by
      show BitVec.ofBool (x == y) = 0#1
      rw [beq_eq_false_iff_ne.mpr h]; rfl
    have e0 : ((0#1 : BitVec 1).setWidth 32).toInt = 0 := by decide
    rw [e, if_neg h, e0]; simp

/-- The row one-hot at (p, c): one exactly where lane c's label, shifted right by three, is p. -/
private theorem pay4_apply (lbl : Vec Ideal S4096 .i32) (p : Fin 8) (c : Fin 4096) :
    k0_pay4 (F := Ideal) rowIota lbl (ix2 p c)
      = if BitVec.ofNat 32 p.val = IntOp.shrsi .vector (lbl (ix1 c)) 3#32 then (1 : EReal) else 0 := by
  unfold k0_pay4
  show FloatOps.sitofp (F := Ideal) .f32 ((IntOp.cmpi .eq (rowIota (ix2 p c))
      (broadcastTo S8x4096 (shapeCast S1x4096 (shrsi lbl (broadcast S4096 3#32)) shapeCasts_S4096_S1x4096)
        broadcasts_S1x4096_S8x4096 (ix2 p c))).setWidth 32) = _
  rw [broadcastTo_1b_ab_apply, shapeCast_a_1a_apply,
    show rowIota (ix2 p c) = BitVec.ofNat 32 p.val from iota_single_apply _ _ _ _ _ _, onehot_val]
  rfl

/-- The column one-hot word at (c, q): the widened bit of "lane c's label has low three bits q". -/
private theorem pay5_apply (lbl : Vec Ideal S4096 .i32) (c : Fin 4096) (q : Fin 8) :
    k0_pay5 (F := Ideal) colIota lbl (ix2 c q)
      = (IntOp.cmpi .eq (BitVec.ofNat 32 q.val) (IntOp.andi (lbl (ix1 c)) 7#32)).setWidth 32 := by
  unfold k0_pay5
  show (IntOp.cmpi .eq (colIota (ix2 c q))
      (broadcastTo S4096x8 (shapeCast S4096x1 (andi lbl (broadcast S4096 7#32)) shapeCasts_S4096_S4096x1)
        broadcasts_S4096x1_S4096x8 (ix2 c q))).setWidth 32 = _
  rw [broadcastTo_a1_ab_apply, shapeCast_a_a1_apply,
    show colIota (ix2 c q) = BitVec.ofNat 32 q.val from iota_single_apply _ _ _ _ _ _]
  rfl

/-- One trip's new table at cell (p, q): what the accumulator held, plus the two products' cells. -/
private theorem pay10_apply (x : FVec Ideal S4096 .f32) (A : FVec Ideal S8x4096 .bf16) (B : IVec S4096x8 32)
    (acc : Vec Ideal S8x8 .f32) (p q : Fin 8) :
    k0_pay10 (F := Ideal) x A B acc (ix2 p q)
      = acc (ix2 p q)
        + ((∑ c : Fin 4096, A (ix2 p c) * (x (ix1 c) * FloatOps.sitofp (F := Ideal) .f32 (B (ix2 c q))))
          + ∑ c : Fin 4096, A (ix2 p c) * ((x (ix1 c) - x (ix1 c)) * FloatOps.sitofp (F := Ideal) .f32 (B (ix2 c q)))) := by
  unfold k0_pay10
  rw [shapeCast_self]
  simp only [matmul, addf_apply, matmul_cell]
  refine congrArg (acc (ix2 p q) + ·) (congrArg₂ (· + ·) ?_ ?_)
  · refine Finset.sum_congr rfl fun c _ => ?_
    rw [mulf_apply, broadcastTo_a1_ab_apply, shapeCast_a_a1_apply]; rfl
  · refine Finset.sum_congr rfl fun c _ => ?_
    rw [mulf_apply, broadcastTo_a1_ab_apply, shapeCast_a_a1_apply]; rfl

/-- A lane's share of cell (p, q): its term where its label falls in the cell, zero where not. -/
private theorem cell_term (b : BitVec 32) (p q : Fin 8) (x : EReal) :
    (if BitVec.ofNat 32 p.val = IntOp.shrsi .vector b 3#32 then (1 : EReal) else 0)
        * (x * FloatOps.sitofp (F := Ideal) .f32 ((IntOp.cmpi .eq (BitVec.ofNat 32 q.val) (IntOp.andi b 7#32)).setWidth 32))
      = if hit b p.val q.val then x else 0 := by
  rw [onehot_val]
  by_cases h1 : BitVec.ofNat 32 p.val = IntOp.shrsi .vector b 3#32
  · by_cases h2 : BitVec.ofNat 32 q.val = IntOp.andi b 7#32
    · rw [if_pos h1, if_pos h2, if_pos (show hit b p.val q.val from ⟨h1, h2⟩), one_mul, mul_one]
    · rw [if_pos h1, if_neg h2, if_neg (fun h : hit b p.val q.val => h2 h.2), mul_zero, mul_zero]
  · rw [if_neg h1, if_neg (fun h : hit b p.val q.val => h1 h.1), zero_mul]

/-- One trip adds to cell (p, q) the terms of the chunk's lanes whose label falls in the cell; the second product,
    of the terms minus themselves, adds nothing, the terms being real numbers. -/
private theorem trip_cell (x0 x1 x2 x3 : Vec Ideal S262144 .f32) (x4 : Vec Ideal S262144 .i32)
    (hfin : ∀ n, ∃ r : ℝ, term x0 x1 x2 x3 n = (r : EReal)) (k : Fin k0_t1_loop.trips) (acc : Vec Ideal S8x8 .f32)
    (p q : Fin 8) :
    k0_pay10 (F := Ideal) (k0_pay2 (chunk x0 k) (chunk x1 k) (chunk x2 k) (chunk x3 k))
        (k0_pay4 rowIota (chunk x4 k)) (k0_pay5 colIota (chunk x4 k)) acc (ix2 p q)
      = acc (ix2 p q) + ∑ j ∈ Finset.range 4096,
          if hit (atNat x4 (k.val * 4096 + j)) p.val q.val then term x0 x1 x2 x3 (k.val * 4096 + j) else 0 := by
  have hk : k.val < 64 := Nat.lt_of_lt_of_eq k.isLt trips_eq
  have ht : ∀ c : Fin 4096, k0_pay2 (F := Ideal) (chunk x0 k) (chunk x1 k) (chunk x2 k) (chunk x3 k) (ix1 c)
      = term x0 x1 x2 x3 (k.val * 4096 + c.val) := fun c => pay2_apply x0 x1 x2 x3 k (ix1 c)
  have hl : ∀ c : Fin 4096, chunk (F := Ideal) x4 k (ix1 c) = atNat x4 (k.val * 4096 + c.val) := fun c => by
    have hc : k.val * 4096 + c.val < 262144 := by have := c.isLt; omega
    rw [atNat_of_lt x4 hc]; exact chunk_apply x4 k (ix1 c) hc
  rw [pay10_apply, Finset.sum_range]
  have hsecond : (∑ c : Fin 4096, k0_pay4 (F := Ideal) rowIota (chunk x4 k) (ix2 p c)
      * ((k0_pay2 (F := Ideal) (chunk x0 k) (chunk x1 k) (chunk x2 k) (chunk x3 k) (ix1 c)
          - k0_pay2 (F := Ideal) (chunk x0 k) (chunk x1 k) (chunk x2 k) (chunk x3 k) (ix1 c))
        * FloatOps.sitofp (F := Ideal) .f32 (k0_pay5 (F := Ideal) colIota (chunk x4 k) (ix2 c q)))) = 0 :=
    Finset.sum_eq_zero fun c _ => by
      obtain ⟨r, hr⟩ := hfin (k.val * 4096 + c.val)
      rw [ht, hr, ← EReal.coe_sub, sub_self, EReal.coe_zero, zero_mul, mul_zero]
  rw [hsecond, add_zero]
  refine congrArg (acc (ix2 p q) + ·) (Finset.sum_congr rfl fun c _ => ?_)
  rw [pay4_apply, pay5_apply, cell_term, ht, hl]

/-- The table after n trips (n at most 64), from zero: cell (p, q) holds the terms, over the chunks before n, of the
    lanes whose label falls in the cell. -/
private theorem table_apply (x0 x1 x2 x3 : Vec Ideal S262144 .f32) (x4 : Vec Ideal S262144 .i32)
    (hfin : ∀ n, ∃ r : ℝ, term x0 x1 x2 x3 n = (r : EReal)) (n : ℕ) (hn : n ≤ 64) (p q : Fin 8) :
    acc10 (F := Ideal) x0 x1 x2 x3 x4 rowIota colIota (k0_pay9 (F := Ideal)) n (ix2 p q)
      = ∑ k ∈ Finset.range n, ∑ j ∈ Finset.range 4096,
          if hit (atNat x4 (k * 4096 + j)) p.val q.val then term x0 x1 x2 x3 (k * 4096 + j) else 0 := by
  induction n with
  | zero =>
    rw [Finset.sum_range_zero]
    show k0_pay9 (F := Ideal) (ix2 p q) = 0
    unfold k0_pay9
    rw [shapeCast_self]
    exact Ideal.ofBits_zero_f32
  | succ n ih =>
    have h : n < k0_t1_loop.trips := by rw [trips_eq]; omega
    have e : acc10 (F := Ideal) x0 x1 x2 x3 x4 rowIota colIota (k0_pay9 (F := Ideal)) (n + 1)
        = k0_pay10 (F := Ideal) (k0_pay2 (chunk x0 ⟨n, h⟩) (chunk x1 ⟨n, h⟩) (chunk x2 ⟨n, h⟩) (chunk x3 ⟨n, h⟩))
            (k0_pay4 rowIota (chunk x4 ⟨n, h⟩)) (k0_pay5 colIota (chunk x4 ⟨n, h⟩))
            (acc10 (F := Ideal) x0 x1 x2 x3 x4 rowIota colIota (k0_pay9 (F := Ideal)) n) := by
      simp only [acc10, dif_pos h]
    rw [e, trip_cell x0 x1 x2 x3 x4 hfin ⟨n, h⟩, ih (by omega)]
    exact (Finset.sum_range_succ _ n).symm

/-- Output 6 after the body: what it held plus, in cell (h, l), the sum of the block's terms whose label falls there.
    The terms are finite (hfin): the body subtracts each term from itself. -/
theorem hits_eq (x0 x1 x2 x3 : Vec Ideal S262144 .f32) (x4 : Vec Ideal S262144 .i32) (v26 : Vec Ideal S1x1x8x8 .f32)
    (hfin : ∀ n, ∃ r : ℝ, term x0 x1 x2 x3 n = (r : EReal)) :
    k0_pay1 (F := Ideal) (k0_pay12 (F := Ideal) v26)
        (acc10 (F := Ideal) x0 x1 x2 x3 x4 rowIota colIota (k0_pay9 (F := Ideal)) k0_t1_loop.trips)
      = fun i => v26 i + blockHits x0 x1 x2 x3 x4 (i 2).val (i 3).val := by
  funext i
  obtain ⟨u, v, p, q, rfl⟩ : ∃ u v p q, i = ix4 u v p q := ⟨_, _, _, _, eq_ix4 i⟩
  unfold k0_pay1 k0_pay12
  rw [shapeCast_self, addf_apply, shapeCast_ab_11ab_apply, trips_eq, table_apply x0 x1 x2 x3 x4 hfin 64 le_rfl]
  -- the 64 chunks of 4096 lanes are the block's 262144 entries
  show v26 (ix4 u v p q) + _ = v26 (ix4 u v p q) + blockHits x0 x1 x2 x3 x4 p.val q.val
  unfold blockHits
  rw [← sum_block_chunks]

/-- The value output 6 is cleared to is zero. -/
theorem pay7_zero : (k0_pay7 (F := Ideal)) = fun _ => (0 : EReal) := by
  funext i
  exact Ideal.ofBits_zero_f32

end Cert.KernelIdeal.TableSum

end
-- ==== Proof.Blocks.lean ====
/-
  A grid point's blocks are pieces of the argument arrays: point t (core t / 32, step t % 32) fetches, of each of the
  five arrays, block number t, so entry n of its block is entry 262144 t + n of the array.  Hence a block's total and
  its per-label table are sums of the arrays' terms over that stretch, and a block of real entries has real terms.
-/
import proofs.«417527_j89910845375274_3_alg».proof.Proof.KDefs
import proofs.«417527_j89910845375274_3_alg».proof.Proof.Algebra
import Idealize.ShloMosaic.Lib.Pipeline.Value

noncomputable section

namespace Cert.KernelIdeal.KV

open Cert.KernelIdeal Cert.KernelIdeal.Gen Cert.Spec
open Idealize.ShloMosaic Idealize.ShloMosaic.TcCoe Idealize.ShloMosaic.ValueIdx Idealize.SL.Sem
open scoped BigOperators

variable (m : (ℓ : Loc nD τ sig) → Buf (Elt Ideal) ℓ)

/-- Entry n of point t's block of each array is the array's entry 262144 t + n. -/
theorem blk0_atNat (c : Dev nD) (t : Fin cfg0.N) (n : ℕ) (hn : n < 262144) :
    atNat (blk0 m c t) n = atNat (A0 m c) (t.val * 262144 + n) := by
  -- the grid has 64 points, so entry 262144 t + n lies inside the array
  have hN : cfg0.N = 64 := N_0
  have ht : t.val < 64 := hN ▸ t.isLt
  have hb : t.val * 262144 + n < 16777216 := by omega
  -- the index map (core, step) ↦ 32 core + step sends point t to block t
  have hidx : ∀ t : Fin cfg0.N, win0_0.index t (0 : Fin 1) = t.val :=
    (by decide +kernel : ∀ t : Fin grid0.N, win0_0.index t (0 : Fin 1) = t.val)
  rw [atNat_of_lt _ hn, atNat_of_lt _ hb]
  show iblk m c 0 t _ = V m c main_arg0 _
  unfold iblk
  rw [View.read_apply]
  show V m c main_arg0 _ = V m c main_arg0 _
  congr 1
  funext a
  apply Fin.ext
  match a with
  | ⟨0, _⟩ =>
    -- block index × block size + coordinate
    show win0_0.index t 0 * 262144 + 1 * n = t.val * 262144 + n
    rw [hidx t]; omega
theorem blk1_atNat (c : Dev nD) (t : Fin cfg0.N) (n : ℕ) (hn : n < 262144) :
    atNat (blk1 m c t) n = atNat (A1 m c) (t.val * 262144 + n) := by
  -- the grid has 64 points, so entry 262144 t + n lies inside the array
  have hN : cfg0.N = 64 := N_0
  have ht : t.val < 64 := hN ▸ t.isLt
  have hb : t.val * 262144 + n < 16777216 := by omega
  -- the index map (core, step) ↦ 32 core + step sends point t to block t
  have hidx : ∀ t : Fin cfg0.N, win0_1.index t (0 : Fin 1) = t.val :=
    (by decide +kernel : ∀ t : Fin grid0.N, win0_1.index t (0 : Fin 1) = t.val)
  rw [atNat_of_lt _ hn, atNat_of_lt _ hb]
  show iblk m c 1 t _ = V m c main_arg1 _
  unfold iblk
  rw [View.read_apply]
  show V m c main_arg1 _ = V m c main_arg1 _
  congr 1
  funext a
  apply Fin.ext
  match a with
  | ⟨0, _⟩ =>
    -- block index × block size + coordinate
    show win0_1.index t 0 * 262144 + 1 * n = t.val * 262144 + n
    rw [hidx t]; omega
theorem blk2_atNat (c : Dev nD) (t : Fin cfg0.N) (n : ℕ) (hn : n < 262144) :
    atNat (blk2 m c t) n = atNat (A2 m c) (t.val * 262144 + n) := by
  -- the grid has 64 points, so entry 262144 t + n lies inside the array
  have hN : cfg0.N = 64 := N_0
  have ht : t.val < 64 := hN ▸ t.isLt
  have hb : t.val * 262144 + n < 16777216 := by omega
  -- the index map (core, step) ↦ 32 core + step sends point t to block t
  have hidx : ∀ t : Fin cfg0.N, win0_2.index t (0 : Fin 1) = t.val :=
    (by decide +kernel : ∀ t : Fin grid0.N, win0_2.index t (0 : Fin 1) = t.val)
  rw [atNat_of_lt _ hn, atNat_of_lt _ hb]
  show iblk m c 2 t _ = V m c main_arg2 _
  unfold iblk
  rw [View.read_apply]
  show V m c main_arg2 _ = V m c main_arg2 _
  congr 1
  funext a
  apply Fin.ext
  match a with
  | ⟨0, _⟩ =>
    -- block index × block size + coordinate
    show win0_2.index t 0 * 262144 + 1 * n = t.val * 262144 + n
    rw [hidx t]; omega
theorem blk3_atNat (c : Dev nD) (t : Fin cfg0.N) (n : ℕ) (hn : n < 262144) :
    atNat (blk3 m c t) n = atNat (A3 m c) (t.val * 262144 + n) := by
  -- the grid has 64 points, so entry 262144 t + n lies inside the array
  have hN : cfg0.N = 64 := N_0
  have ht : t.val < 64 := hN ▸ t.isLt
  have hb : t.val * 262144 + n < 16777216 := by omega
  -- the index map (core, step) ↦ 32 core + step sends point t to block t
  have hidx : ∀ t : Fin cfg0.N, win0_3.index t (0 : Fin 1) = t.val :=
    (by decide +kernel : ∀ t : Fin grid0.N, win0_3.index t (0 : Fin 1) = t.val)
  rw [atNat_of_lt _ hn, atNat_of_lt _ hb]
  show iblk m c 3 t _ = V m c main_arg3 _
  unfold iblk
  rw [View.read_apply]
  show V m c main_arg3 _ = V m c main_arg3 _
  congr 1
  funext a
  apply Fin.ext
  match a with
  | ⟨0, _⟩ =>
    -- block index × block size + coordinate
    show win0_3.index t 0 * 262144 + 1 * n = t.val * 262144 + n
    rw [hidx t]; omega
theorem blk4_atNat (c : Dev nD) (t : Fin cfg0.N) (n : ℕ) (hn : n < 262144) :
    atNat (blk4 m c t) n = atNat (A4 m c) (t.val * 262144 + n) := by
  -- the grid has 64 points, so entry 262144 t + n lies inside the array
  have hN : cfg0.N = 64 := N_0
  have ht : t.val < 64 := hN ▸ t.isLt
  have hb : t.val * 262144 + n < 16777216 := by omega
  -- the index map (core, step) ↦ 32 core + step sends point t to block t
  have hidx : ∀ t : Fin cfg0.N, win0_4.index t (0 : Fin 1) = t.val :=
    (by decide +kernel : ∀ t : Fin grid0.N, win0_4.index t (0 : Fin 1) = t.val)
  rw [atNat_of_lt _ hn, atNat_of_lt _ hb]
  show iblk m c 4 t _ = V m c main_arg4 _
  unfold iblk
  rw [View.read_apply]
  show V m c main_arg4 _ = V m c main_arg4 _
  congr 1
  funext a
  apply Fin.ext
  match a with
  | ⟨0, _⟩ =>
    -- block index × block size + coordinate
    show win0_4.index t 0 * 262144 + 1 * n = t.val * 262144 + n
    rw [hidx t]; omega

/-- Block s's total is the sum of the arrays' terms over entries 262144 s … 262144 s + 262143. -/
theorem blockSumAt_eq (c : Dev nD) (s : ℕ) (hs : s < 64) :
    blockSumAt m c s
      = ∑ n ∈ Finset.range 262144, term (A0 m c) (A1 m c) (A2 m c) (A3 m c) (s * 262144 + n) := by
  have hN : cfg0.N = 64 := N_0
  have hs' : s < cfg0.N := hN.symm ▸ hs
  unfold blockSumAt
  rw [dif_pos hs']
  unfold blockSum
  refine Finset.sum_congr rfl fun n hn => ?_
  have hn' : n < 262144 := Finset.mem_range.mp hn
  have e0 : atNat (blk0 m c ⟨s, hs'⟩) n = atNat (A0 m c) (s * 262144 + n) := blk0_atNat m c ⟨s, hs'⟩ n hn'
  have e1 : atNat (blk1 m c ⟨s, hs'⟩) n = atNat (A1 m c) (s * 262144 + n) := blk1_atNat m c ⟨s, hs'⟩ n hn'
  have e2 : atNat (blk2 m c ⟨s, hs'⟩) n = atNat (A2 m c) (s * 262144 + n) := blk2_atNat m c ⟨s, hs'⟩ n hn'
  have e3 : atNat (blk3 m c ⟨s, hs'⟩) n = atNat (A3 m c) (s * 262144 + n) := blk3_atNat m c ⟨s, hs'⟩ n hn'
  unfold term
  rw [e0, e1, e2, e3]

/-- Block s's cell (h, l) is the sum of those terms whose label falls in the cell. -/
theorem blockHitsAt_eq (c : Dev nD) (s h l : ℕ) (hs : s < 64) :
    blockHitsAt m c s h l
      = ∑ n ∈ Finset.range 262144,
          if hit (atNat (A4 m c) (s * 262144 + n)) h l then term (A0 m c) (A1 m c) (A2 m c) (A3 m c) (s * 262144 + n)
          else 0 := by
  have hN : cfg0.N = 64 := N_0
  have hs' : s < cfg0.N := hN.symm ▸ hs
  unfold blockHitsAt
  rw [dif_pos hs']
  unfold blockHits
  refine Finset.sum_congr rfl fun n hn => ?_
  have hn' : n < 262144 := Finset.mem_range.mp hn
  have e0 : atNat (blk0 m c ⟨s, hs'⟩) n = atNat (A0 m c) (s * 262144 + n) := blk0_atNat m c ⟨s, hs'⟩ n hn'
  have e1 : atNat (blk1 m c ⟨s, hs'⟩) n = atNat (A1 m c) (s * 262144 + n) := blk1_atNat m c ⟨s, hs'⟩ n hn'
  have e2 : atNat (blk2 m c ⟨s, hs'⟩) n = atNat (A2 m c) (s * 262144 + n) := blk2_atNat m c ⟨s, hs'⟩ n hn'
  have e3 : atNat (blk3 m c ⟨s, hs'⟩) n = atNat (A3 m c) (s * 262144 + n) := blk3_atNat m c ⟨s, hs'⟩ n hn'
  have e4 : atNat (blk4 m c ⟨s, hs'⟩) n = atNat (A4 m c) (s * 262144 + n) := blk4_atNat m c ⟨s, hs'⟩ n hn'
  have et : term (blk0 m c ⟨s, hs'⟩) (blk1 m c ⟨s, hs'⟩) (blk2 m c ⟨s, hs'⟩) (blk3 m c ⟨s, hs'⟩) n
      = term (A0 m c) (A1 m c) (A2 m c) (A3 m c) (s * 262144 + n) := by
    unfold term
    rw [e0, e1, e2, e3]
  rw [e4, et]

/-- Where the arrays' entries are real, every term of every block is real. -/
theorem blk_term_real (c : Dev nD) (hfin : FiniteArgs m c) (t : Fin cfg0.N) (n : ℕ) :
    ∃ r : ℝ, term (blk0 m c t) (blk1 m c t) (blk2 m c t) (blk3 m c t) n = (r : EReal) := by
  obtain ⟨h0, h1, h2, h3⟩ := hfin
  -- a block's entry is one of the array's entries, hence real
  refine term_real _ _ _ _ (fun j => ?_) (fun j => ?_) (fun j => ?_) (fun j => ?_) n
  · show ∃ r : ℝ, iblk m c 0 t j = (r : EReal)
    unfold iblk
    rw [View.read_apply]
    show ∃ r : ℝ, V m c main_arg0 _ = (r : EReal)
    exact h0 _
  · show ∃ r : ℝ, iblk m c 1 t j = (r : EReal)
    unfold iblk
    rw [View.read_apply]
    show ∃ r : ℝ, V m c main_arg1 _ = (r : EReal)
    exact h1 _
  · show ∃ r : ℝ, iblk m c 2 t j = (r : EReal)
    unfold iblk
    rw [View.read_apply]
    show ∃ r : ℝ, V m c main_arg2 _ = (r : EReal)
    exact h2 _
  · show ∃ r : ℝ, iblk m c 3 t j = (r : EReal)
    unfold iblk
    rw [View.read_apply]
    show ∃ r : ℝ, V m c main_arg3 _ = (r : EReal)
    exact h3 _

end Cert.KernelIdeal.KV

end
-- ==== Proof.Points.lean ====
/-
  What the two outputs' staging buffers hold after each grid point.  The grid walks core 0's 32 blocks, then core 1's;
  at a core's first point the outputs are cleared and the block's total and table are added, at each later point the
  block's are added to what the point before left.  So after point n the buffers hold the sums over the blocks
  32 (n / 32) … n — by induction on the point.
-/
import proofs.«417527_j89910845375274_3_alg».proof.Proof.BodyOut
import proofs.«417527_j89910845375274_3_alg».proof.Proof.LaneSum
import proofs.«417527_j89910845375274_3_alg».proof.Proof.TableSum
import proofs.«417527_j89910845375274_3_alg».proof.Proof.KDefs
import proofs.«417527_j89910845375274_3_alg».proof.Proof.Blocks

noncomputable section

namespace Cert.KernelIdeal.KV

open Cert.KernelIdeal Cert.KernelIdeal.Gen Cert.Spec
open Idealize.ShloMosaic Idealize.ShloMosaic.TcCoe Idealize.SL.Sem
open scoped BigOperators

variable (m : (ℓ : Loc nD τ sig) → Buf (Elt Ideal) ℓ)

/-- At a core's first point the outputs end at the block's total and table (added to the cleared zero). -/
theorem outs_first (c : Dev nD) (hfin : FiniteArgs m c) (t : Fin cfg0.N) (h0 : t.val % 32 = 0) :
    outsAt0 m c t.val t.isLt
      = (fun _ => blockSum (blk0 m c t) (blk1 m c t) (blk2 m c t) (blk3 m c t),
         fun i => blockHits (blk0 m c t) (blk1 m c t) (blk2 m c t) (blk3 m c t) (blk4 m c t) (i 2).val (i 3).val) := by
  rw [outsAt0_A m c t h0]
  refine Prod.ext ?_ ?_
  · dsimp only
    refine (Body.out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (blk0 m c t) (blk1 m c t) (blk2 m c t) (blk3 m c t) (blk4 m c t)).trans ?_
    rw [LaneSum.total_eq, LaneSum.pay6_zero]
    funext i
    exact zero_add _
  · dsimp only
    refine (Body.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (blk0 m c t) (blk1 m c t) (blk2 m c t) (blk3 m c t) (blk4 m c t)).trans ?_
    rw [TableSum.hits_eq _ _ _ _ _ _ (blk_term_real m c hfin t), TableSum.pay7_zero]
    funext i
    exact zero_add _

/-- At a later point the outputs end at what the point before left plus the block's total and table. -/
theorem outs_later (c : Dev nD) (hfin : FiniteArgs m c) (t : Fin cfg0.N) (h0 : ¬t.val % 32 = 0) :
    outsAt0 m c t.val t.isLt
      = (fun i => (outsAt0 m c (t.val - 1) (Nat.lt_of_le_of_lt (Nat.sub_le _ _) t.isLt)).1 i
            + blockSum (blk0 m c t) (blk1 m c t) (blk2 m c t) (blk3 m c t),
         fun i => (outsAt0 m c (t.val - 1) (Nat.lt_of_le_of_lt (Nat.sub_le _ _) t.isLt)).2 i
            + blockHits (blk0 m c t) (blk1 m c t) (blk2 m c t) (blk3 m c t) (blk4 m c t) (i 2).val (i 3).val) := by
  rw [outsAt0_B m c t h0]
  refine Prod.ext ?_ ?_
  · dsimp only
    refine (Body.out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (blk0 m c t) (blk1 m c t) (blk2 m c t) (blk3 m c t) (blk4 m c t)
      (outsAt0 m c (t.val - 1) (Nat.lt_of_le_of_lt (Nat.sub_le _ _) t.isLt)).1
      (outsAt0 m c (t.val - 1) (Nat.lt_of_le_of_lt (Nat.sub_le _ _) t.isLt)).2).trans ?_
    rw [LaneSum.total_eq]
  · dsimp only
    refine (Body.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (blk0 m c t) (blk1 m c t) (blk2 m c t) (blk3 m c t) (blk4 m c t)
      (outsAt0 m c (t.val - 1) (Nat.lt_of_le_of_lt (Nat.sub_le _ _) t.isLt)).1
      (outsAt0 m c (t.val - 1) (Nat.lt_of_le_of_lt (Nat.sub_le _ _) t.isLt)).2).trans ?_
    rw [TableSum.hits_eq _ _ _ _ _ _ (blk_term_real m c hfin t)]

/-- THE ACCUMULATION over the grid: after point n the outputs hold the sums over blocks 32 (n / 32) … n. -/
theorem outsAt_eq (c : Dev nD) (hfin : FiniteArgs m c) : ∀ (n : ℕ) (h : n < cfg0.N),
    outsAt0 m c n h
      = (fun _ => ∑ s ∈ Finset.Ico (32 * (n / 32)) (n + 1), blockSumAt m c s,
         fun i => ∑ s ∈ Finset.Ico (32 * (n / 32)) (n + 1), blockHitsAt m c s (i 2).val (i 3).val) := by
  intro n
  induction n with
  | zero =>
    intro h
    rw [outs_first m c hfin ⟨0, h⟩ rfl]
    refine Prod.ext ?_ ?_
    · funext _; simp [blockSumAt, h]
    · funext i; simp [blockHitsAt, h]
  | succ n ih =>
    intro h
    by_cases h0 : (n + 1) % 32 = 0
    · rw [outs_first m c hfin ⟨n + 1, h⟩ h0]
      have e : 32 * ((n + 1) / 32) = n + 1 := by omega
      refine Prod.ext ?_ ?_
      · funext _
        show _ = ∑ s ∈ Finset.Ico (32 * ((n + 1) / 32)) (n + 1 + 1), blockSumAt m c s
        rw [e, Finset.sum_Ico_succ_top (le_refl _), Finset.Ico_self, Finset.sum_empty, zero_add, blockSumAt, dif_pos h]
      · funext i
        show _ = ∑ s ∈ Finset.Ico (32 * ((n + 1) / 32)) (n + 1 + 1), blockHitsAt m c s (i 2).val (i 3).val
        rw [e, Finset.sum_Ico_succ_top (le_refl _), Finset.Ico_self, Finset.sum_empty, zero_add, blockHitsAt, dif_pos h]
    · rw [outs_later m c hfin ⟨n + 1, h⟩ h0]
      have hprev := ih (Nat.lt_of_succ_lt h)
      have e : 32 * ((n + 1) / 32) = 32 * (n / 32) := by omega
      have hle : 32 * (n / 32) ≤ n + 1 := by omega
      refine Prod.ext ?_ ?_
      · funext i
        show (outsAt0 m c (n + 1 - 1) _).1 i + _ = ∑ s ∈ Finset.Ico (32 * ((n + 1) / 32)) (n + 1 + 1), blockSumAt m c s
        rw [e, Finset.sum_Ico_succ_top hle]
        simp only [Nat.add_sub_cancel]
        rw [hprev]
        simp only [blockSumAt, dif_pos h]
      · funext i
        show (outsAt0 m c (n + 1 - 1) _).2 i + _
          = ∑ s ∈ Finset.Ico (32 * ((n + 1) / 32)) (n + 1 + 1), blockHitsAt m c s (i 2).val (i 3).val
        rw [e, Finset.sum_Ico_succ_top hle]
        simp only [Nat.add_sub_cancel]
        rw [hprev]
        simp only [blockHitsAt, dif_pos h]

end Cert.KernelIdeal.KV

end
-- ==== Proof.LibScatterSet.lean ====
/-
  A scatter whose body returns the update (an overwrite), read at one index of its result: the fold over the
  update indices leaves at operand index `i` the update element of an update index landing on `i` when all such
  update indices carry the same element there, and the operand's own element when no update index lands on `i`.
  Where an update index lands is start plus window coordinate on every axis.
-/
import Idealize.ShloMosaic.Lib.StableHlo.Run

namespace Cert.Halo.ScatterSet

open Idealize.ShloMosaic

section Fold

variable {ι κ α : Type}

/-- A step function that overwrites: entry `n` lands on `g n` (if anywhere), puts `v n` there and keeps every
    other place. -/
structure Overwrites (g : ι → Option κ) (v : ι → α) (stp : (κ → α) → ι → κ → α) : Prop where
  of_ne : ∀ r n i', g n ≠ some i' → stp r n i' = r i'
  of_eq : ∀ r n i', g n = some i' → stp r n i' = v n

variable {g : ι → Option κ} {v : ι → α} {stp : (κ → α) → ι → κ → α}

/-- Where no entry of the list lands, the fold keeps what was there. -/
theorem foldl_miss (hs : Overwrites g v stp) (i' : κ) :
    ∀ (L : List ι) (r : κ → α), (∀ n ∈ L, g n ≠ some i') → L.foldl stp r i' = r i'
  | [], _, _ => rfl
  | a :: t, r, h => by
    rw [List.foldl_cons, foldl_miss hs i' t _ fun n hn => h n (List.mem_cons_of_mem _ hn),
      hs.of_ne r a i' (h a List.mem_cons_self)]

/-- Where some entry of the list lands and every entry landing there carries the value `c`, the fold leaves `c`. -/
theorem foldl_hit (hs : Overwrites g v stp) (i' : κ) (c : α) (hv : ∀ n, g n = some i' → v n = c) :
    ∀ (L : List ι) (r : κ → α), (∃ n ∈ L, g n = some i') → L.foldl stp r i' = c
  | [], _, h => by obtain ⟨n, hn, _⟩ := h; exact absurd hn List.not_mem_nil
  | a :: t, r, h => by
    rw [List.foldl_cons]
    by_cases ht : ∃ n ∈ t, g n = some i'
    · exact foldl_hit hs i' c hv t _ ht
    · have hmiss : ∀ n ∈ t, g n ≠ some i' := fun n hn e => ht ⟨n, hn, e⟩
      rw [foldl_miss hs i' t _ hmiss]
      obtain ⟨n, hn, hg⟩ := h
      rcases List.mem_cons.mp hn with rfl | hn'
      · rw [hs.of_eq r n i' hg]; exact hv n hg
      · exact absurd hg (hmiss n hn')

end Fold

section Scatter

variable {s si u : Shape} {α : Type} {w : Nat}

/-- The overwriting scatter's step: update position `n` in row-major order, put where it lands. -/
def scatStep (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The overwriting scatter is the fold of that step over the update positions. -/
theorem scatter_eq_foldl (d : ScatterDims s si u) (x : s.Idx → α) (idx : IVec si w) (upd : u.Idx → α) :
    Host.scatter d (fun _ b => b) x idx upd = (List.finRange u.numel).foldl (scatStep d idx upd) x := rfl

theorem scatStep_overwrites (d : ScatterDims s si u) (idx : IVec si w) (upd : u.Idx → α) :
    Overwrites (fun n => d.resultIdx? (u.rowMajor.symm n) idx) (fun n => upd (u.rowMajor.symm n)) (scatStep d idx upd) where
  of_ne r n i' h := by
    unfold scatStep
    cases hg : d.resultIdx? (u.rowMajor.symm n) idx with
    | none => rfl
    | some i =>
      have hne : i' ≠ i := fun e => h (by rw [hg, e])
      exact if_neg hne
  of_eq r n i' h := by
    unfold scatStep
    have h' : d.resultIdx? (u.rowMajor.symm n) idx = some i' := h
    rw [h']
    exact if_pos rfl

/-- An operand index no update index lands on keeps the operand's element. -/
theorem scatter_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_miss (scatStep_overwrites d idx upd) i _ x fun n _ => h _

/-- An operand index update index `j₀` lands on, every update index landing there carrying `j₀`'s element, takes it. -/
theorem scatter_hit (d : ScatterDims s si u) (x : s.Idx → α) (idx : IVec si w) (upd : u.Idx → α) (i : s.Idx)
    (j₀ : u.Idx) (h₀ : d.resultIdx? j₀ idx = some i) (hu : ∀ j : u.Idx, d.resultIdx? j idx = some i → upd j = upd j₀) :
    Host.scatter d (fun _ b => b) x idx upd i = upd j₀ := by
  rw [scatter_eq_foldl]
  refine foldl_hit (scatStep_overwrites d idx upd) i (upd j₀) (fun n hn => hu _ hn) _ x
    ⟨u.rowMajor j₀, List.mem_finRange _, ?_⟩
  show d.resultIdx? (u.rowMajor.symm (u.rowMajor j₀)) idx = some i
  rw [Equiv.symm_apply_apply]; exact h₀

/-- Update index `j` lands on operand index `i` exactly when, on every axis, start plus window coordinate is `i`'s
    coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => (f a).val) e'
      simp only at this
      have h0 := (h a).1
      omega
    · intro e
      refine congrArg some (funext fun a => Fin.ext ?_)
      have := e a
      show (d.start j idx a + (d.window j a : Int)).toNat = (i a).val
      omega
  · rename_i h
    constructor
    · intro e; exact absurd e (by simp)
    · intro e
      exact absurd (fun a => by have := e a; have := (i a).isLt; constructor <;> omega) h

end Scatter

end Cert.Halo.ScatterSet
-- ==== Proof.RefValue.lean ====
/-
  The reference, read: its array of terms is the term of its four float arguments at every position; its first
  result, before the division, is zero plus the sum of all terms; its scatter of the terms by label leaves at label u
  zero plus the sum of the terms of the elements whose label word is the number u — an element whose label is
  negative or above 63 lands nowhere.
-/
import proofs.«417527_j89910845375274_3_alg».proof.Proof.Gen.ReferenceIdeal.Read
import proofs.«417527_j89910845375274_3_alg».proof.Proof.Spec
import proofs.«417527_j89910845375274_3_alg».proof.Proof.LibScatterSet
import Idealize.ShloMosaic.PureOps.Ideal.Laws

noncomputable section

namespace Cert.ReferenceIdeal.RefValue

open Cert.ReferenceIdeal Cert.Spec
open Idealize.ShloMosaic Idealize.ShloMosaic.ValueIdx
open scoped BigOperators

/-- The reference's array of terms (its multiply by the weights) at position n is the term there. -/
theorem x_eq (a0 a1 a2 a3 : Vec Ideal S16777216 .f32) (n : ℕ) (h : n < 16777216) :
    Read.val_main_v14 (F := Ideal) a0 a1 a2 a3 (ix1 ⟨n, h⟩) = term a0 a1 a2 a3 n := by
  simp only [Read.val_main_v14_apply, Read.val_main_v13_apply, Read.val_main_v12_apply, Read.val_main_v11_apply,
    Read.val_main_v10_apply, Read.val_main_v9_apply, Read.val_main_v8_apply, Read.val_main_v7_apply,
    Read.val_main_v6_apply, Read.val_main_v5_apply, Read.val_main_v4_apply, Read.val_main_v3_apply,
    Read.val_main_v2_apply, Read.val_main_v1_apply, Read.val_main_v0_apply, Read.val_main_cst_apply,
    Read.val_main_cst_0_apply, Read.val_main_cst_1_apply]
  unfold term pt
  rw [atNat_of_lt a0 h, atNat_of_lt a1 h, atNat_of_lt a2 h, atNat_of_lt a3 h]
  rfl

/-- A rank-one index is its single coordinate. -/
private def idxEquiv (N : ℕ) : (⟨1, ![N]⟩ : Shape).Idx ≃ Fin N where
  toFun j := j 0
  invFun := ix1
  left_inv j := (eq_ix1 j).symm
  right_inv a := rfl

/-- A sum over all rank-one indices is the sum over the range of naturals below the extent. -/
private theorem sum_idx_eq_range {N : ℕ} (f : (⟨1, ![N]⟩ : Shape).Idx → EReal) (g : ℕ → EReal)
    (hfg : ∀ n (h : n < N), f (ix1 ⟨n, h⟩) = g n) : ∑ j, f j = ∑ n ∈ Finset.range N, g n := by
  rw [Finset.sum_range, ← Equiv.sum_comp (idxEquiv N).symm f]
  exact Finset.sum_congr rfl fun a _ => hfg a.val a.isLt

/-- The same for a sum of conditionals, the condition and the summand re-read at naturals. -/
private theorem sum_ite_idx_eq_range {N : ℕ} (p : (⟨1, ![N]⟩ : Shape).Idx → Prop) [DecidablePred p]
    (q : ℕ → Prop) [DecidablePred q] (f : (⟨1, ![N]⟩ : Shape).Idx → EReal) (g : ℕ → EReal)
    (hpq : ∀ n (h : n < N), p (ix1 ⟨n, h⟩) ↔ q n) (hfg : ∀ n (h : n < N), f (ix1 ⟨n, h⟩) = g n) :
    (∑ j, if p j then f j else 0) = ∑ n ∈ Finset.range N, if q n then g n else 0 :=
  sum_idx_eq_range _ _ fun n h => by rw [hfg n h]; exact if_congr (hpq n h) rfl rfl

/-- The reference's sum of all terms, from zero. -/
theorem loss_eq (a0 a1 a2 a3 : Vec Ideal S16777216 .f32) :
    Read.val_main_v15 (F := Ideal) a0 a1 a2 a3 = fun _ => 0 + ∑ n ∈ Finset.range 16777216, term a0 a1 a2 a3 n := by
  funext i
  rw [Read.val_main_v15_apply, Read.val_main_cst_2_apply, Ideal.ofBits_def, Ideal.ofBits_zero_f32,
    sum_idx_eq_range _ _ fun n h => x_eq a0 a1 a2 a3 n h]

/-- The label axis is an inserted one: the window coordinate on it is zero. -/
private theorem window_zero (j : S16777216.Idx) (a : Fin 1) :
    scatter_S64_S16777216x1_S16777216_n_0_0_1.window j a = 0 := by
  have ha : a = 0 := Subsingleton.elim _ _
  subst ha
  unfold ScatterDims.window
  rw [dif_neg]
  decide

/-- Element j reads its start index at row j of the one-column label array, which the broadcast reads at j. -/
private theorem idx_siIdx (j : S16777216.Idx)
    (c : Fin scatter_S64_S16777216x1_S16777216_n_0_0_1.scatterDimsToOperandDims.length) :
    Read.idx_main_v18 (scatter_S64_S16777216x1_S16777216_n_0_0_1.siIdx j c) = j := by
  funext b
  match b with
  | ⟨0, _⟩ => exact Fin.ext rfl

/-- The start of element j on the label axis is its label word, read signed. -/
private theorem start_eq (a4 : Vec Ideal S16777216 .i32) (j : S16777216.Idx) (a : Fin 1) :
    scatter_S64_S16777216x1_S16777216_n_0_0_1.start j (Read.val_main_v18 (F := Ideal) a4) a = (a4 j).toInt := by
  have ha : a = 0 := Subsingleton.elim _ _
  subst ha
  unfold ScatterDims.start
  rw [dif_pos (by decide), Read.val_main_v18_apply, idx_siIdx]

/-- An update index lands on label u exactly when its label word, read signed, is the number u. -/
private theorem lands_iff (a4 : Vec Ideal S16777216 .i32) (j : S16777216.Idx) (u : S64.Idx) :
    scatter_S64_S16777216x1_S16777216_n_0_0_1.resultIdx? j (Read.val_main_v18 (F := Ideal) a4) = some u
      ↔ (a4 j).toInt = (((u 0).val : ℕ) : ℤ) := by
  rw [Cert.Halo.ScatterSet.resultIdx?_eq_some_iff]
  constructor
  · intro h
    have h0 := h 0
    rwa [start_eq, window_zero, Nat.cast_zero, add_zero] at h0
  · intro h a
    have ha : a = 0 := Subsingleton.elim _ _
    subst ha
    rw [start_eq, window_zero, Nat.cast_zero, add_zero]
    exact h

/-- The exact scatter-add read at one result index, the filtered sum written as a sum of conditionals. -/
private theorem hostScatterAdd_apply {s si su : Shape} (d : ScatterDims s si su) {w : Nat} (x : s.Idx → EReal)
    (idx : IVec si w) (upd : su.Idx → EReal) (i : s.Idx) :
    Ideal.hostScatterAdd d x idx upd i = x i + ∑ j, if d.resultIdx? j idx = some i then upd j else 0 := by
  unfold Ideal.hostScatterAdd
  rw [Finset.sum_filter]

/-- The reference's per-label sums, from zero: label u collects the elements whose label word is the number u. -/
theorem labels_eq (a0 a1 a2 a3 : Vec Ideal S16777216 .f32) (a4 : Vec Ideal S16777216 .i32) :
    Read.val_main_v19 (F := Ideal) a0 a1 a2 a3 a4
      = fun u => 0 + ∑ n ∈ Finset.range 16777216,
          if (atNat a4 n).toInt = (((u 0).val : ℕ) : ℤ) then term a0 a1 a2 a3 n else 0 := by
  funext u
  have h19 : Read.val_main_v19 (F := Ideal) a0 a1 a2 a3 a4
      = Ideal.hostScatterAdd scatter_S64_S16777216x1_S16777216_n_0_0_1 (Read.val_main_v17 (F := Ideal))
          (Read.val_main_v18 (F := Ideal) a4) (Read.val_main_v14 (F := Ideal) a0 a1 a2 a3) := rfl
  rw [h19, hostScatterAdd_apply, Read.val_main_v17_apply, Read.val_main_cst_4_apply, Ideal.ofBits_def,
    Ideal.ofBits_zero_f32,
    sum_ite_idx_eq_range _ (fun n => (atNat a4 n).toInt = (((u 0).val : ℕ) : ℤ)) _ (term a0 a1 a2 a3)
      (fun n h => by rw [atNat_of_lt a4 h]; exact lands_iff a4 _ u) (fun n h => x_eq a0 a1 a2 a3 n h)]

end Cert.ReferenceIdeal.RefValue

end
-- ==== Proof.Bridge.lean ====
/-
  The two programs compute the same two results.  Both divide by the same constant, so it suffices that the sums
  agree: the two cores' totals add up to the sum of all 2^24 terms (a core's total is the sum of its 32 blocks', a
  block's the sum of its 262144 entries'), and the two cores' tables add up, in cell (h, l), to the sum of the terms
  of the elements whose label word is the number 8 h + l — which is what the reference scatters to label 8 h + l.
-/
import proofs.«417527_j89910845375274_3_alg».proof.Proof.KDefs
import proofs.«417527_j89910845375274_3_alg».proof.Proof.TailDefs
import proofs.«417527_j89910845375274_3_alg».proof.Proof.Blocks
import proofs.«417527_j89910845375274_3_alg».proof.Proof.Algebra
import proofs.«417527_j89910845375274_3_alg».proof.Proof.RefValue
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Cert.Spec Cert.KernelIdeal.KV
open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)

/-- The three-axis index set [2, 1, 1] is its first coordinate. -/
private def idx211Equiv : (⟨3, ![2, 1, 1]⟩ : Shape).Idx ≃ Fin 2 where
  toFun i := i 0
  invFun k := ix3 k 0 0
  left_inv i := by
    have h1 : (i 1).val < 1 := (i 1).isLt
    have h2 : (i 2).val < 1 := (i 2).isLt
    funext a
    match a with
    | ⟨0, _⟩ => rfl
    | ⟨1, _⟩ => exact Fin.ext (by show 0 = (i 1).val; omega)
    | ⟨2, _⟩ => exact Fin.ext (by show 0 = (i 2).val; omega)
  right_inv k := rfl

/-- A sum over the index set [2, 1, 1] of a function of the first coordinate is the sum over that coordinate. -/
private theorem sum_idx211 {M : Type*} [AddCommMonoid M] (f : (⟨3, ![2, 1, 1]⟩ : Shape).Idx → M) (g : ℕ → M)
    (hfg : ∀ i, f i = g (i 0).val) : ∑ i, f i = ∑ k ∈ Finset.range 2, g k := by
  rw [Finset.sum_range]
  exact Fintype.sum_equiv idx211Equiv _ _ (fun i => hfg i)

/-- Two cores of 32 blocks each, every block a sum over its 262144 entries, make the sum over all 2^24 entries. -/
private theorem cores_sum (g F : ℕ → EReal)
    (hg : ∀ s, s < 64 → g s = ∑ n ∈ Finset.range 262144, F (s * 262144 + n)) :
    ∑ c' ∈ Finset.range 2, ∑ s ∈ Finset.Ico (32 * c') (32 * c' + 32), g s = ∑ n ∈ Finset.range 16777216, F n := by
  rw [← sum_blocks F]
  refine Finset.sum_congr rfl (fun c' hc' => Finset.sum_congr rfl (fun s hs => hg s ?_))
  rw [Finset.mem_range] at hc'
  rw [Finset.mem_Ico] at hs
  omega

/-- The kernel's first result is the reference's, of the same four arrays. -/
theorem loss_bridge (c : Dev Cert.KernelIdeal.nD) :
    lossOf (sumxArr m c)
      = Cert.ReferenceIdeal.Read.val_main_v16 (F := Ideal) (A0 m c) (A1 m c) (A2 m c) (A3 m c) := by
  unfold lossOf Cert.ReferenceIdeal.Read.val_main_v16 Cert.ReferenceIdeal.Read.val_main_cst_3
  refine congrArg (fun z => Host.divf (F := Ideal) z _) ?_
  rw [Cert.ReferenceIdeal.RefValue.loss_eq]
  funext j
  simp only [Host.reduceAdd, Ideal.hostReduceAdd_def]
  rw [Ideal.hostReduceAdd_total _ (fun b => b.elim0), constant_apply, Ideal.ofBits_zero_f32,
    sum_idx211 (sumxArr m c) (fun k => ∑ s ∈ Finset.Ico (32 * k) (32 * k + 32), blockSumAt m c s) (fun i => rfl)]
  refine congrArg (fun z => (0 : EReal) + z) ?_
  exact cores_sum _ _ (fun s hs => blockSumAt_eq m c s hs)

/-- The kernel's second result is the reference's, of the same five arrays. -/
theorem labels_bridge (c : Dev Cert.KernelIdeal.nD) :
    labelsOf (labArr m c)
      = Cert.ReferenceIdeal.Read.val_main_v21 (F := Ideal) (A0 m c) (A1 m c) (A2 m c) (A3 m c) (A4 m c) := by
  unfold labelsOf Cert.ReferenceIdeal.Read.val_main_v21 Cert.ReferenceIdeal.Read.val_main_v20
    Cert.ReferenceIdeal.Read.val_main_cst_5
  refine congrArg (fun z => Host.divf (F := Ideal) z _) ?_
  rw [Cert.ReferenceIdeal.RefValue.labels_eq]
  funext u
  have hu : (u 0).val < 64 := (u 0).isLt
  have hred : Cert.KernelIdeal.S2x1x8x8.Reduces [0] Cert.KernelIdeal.S1x8x8 := by decide
  -- label u is read from cell (u / 8, u % 8) of the summed table: the same row-major position
  rw [shapeCast_apply _ _ u (ix3 0 ⟨(u 0).val / 8, by omega⟩ ⟨(u 0).val % 8, Nat.mod_lt _ (by decide)⟩)
    (by rw [Shape.rowMajor_val_three, Shape.rowMajor_val_one]
        show ((0 * 8 + (u 0).val / 8) * 8 + (u 0).val % 8 = (u 0).val); omega)]
  -- the summed table's cell is zero plus the sum over the two cores of their cells
  simp only [Host.reduceAdd, Ideal.hostReduceAdd_def]
  rw [Ideal.hostReduceAdd_single _ hred, constant_apply, Ideal.ofBits_zero_f32]
  refine congrArg (fun z => (0 : EReal) + z) ?_
  have hsum : ∑ k, labArr m c (hred.lift (ix3 0 ⟨(u 0).val / 8, by omega⟩ ⟨(u 0).val % 8, Nat.mod_lt _ (by decide)⟩) k)
      = ∑ k ∈ Finset.range 2, ∑ s ∈ Finset.Ico (32 * k) (32 * k + 32),
          blockHitsAt m c s ((u 0).val / 8) ((u 0).val % 8) := by
    rw [Finset.sum_range]
    rfl
  rw [hsum]
  -- each block's cell collects the block's elements whose label word is the number 8 (u / 8) + u % 8 = u
  refine cores_sum _ (fun n => if (atNat (A4 m c) n).toInt = (((u 0).val : ℕ) : ℤ)
    then term (A0 m c) (A1 m c) (A2 m c) (A3 m c) n else 0) (fun s hs => ?_)
  rw [blockHitsAt_eq m c s _ _ hs]
  refine Finset.sum_congr rfl (fun n _ => ?_)
  have hcell : 8 * ((u 0).val / 8) + (u 0).val % 8 = (u 0).val := by omega
  have hiff := hit_iff (atNat (A4 m c) (s * 262144 + n)) ((u 0).val / 8) ((u 0).val % 8) (by omega)
    (Nat.mod_lt _ (by decide))
  rw [hcell] at hiff
  exact if_congr hiff rfl rfl

end Cert.Bridge

end
-- ==== Proof.Finite.lean ====
/-
  The precondition read: it is the conjunction of four tests "every entry of this float array has absolute value
  below +infinity"; where it evaluates to true at the ideal instance, every entry of each of the four float arrays is
  a real number (neither infinity).
-/
import proofs.«417527_j89910845375274_3_alg».proof.Pre_finite_inputs
import proofs.«417527_j89910845375274_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The rank-0 shape has one index. -/
private instance : Subsingleton Cert.Pre_finite_inputs.S_.Idx := ⟨fun a b => funext fun d => d.elim0⟩

/-- The word 0x7F800000 denotes +infinity. -/
private theorem ofBits_inf_f32 : Ideal.ofBits .f32 0x7F800000#32 = ⊤ := by
  simp [Ideal.ofBits, Ideal.ieee]

/-- The comparison "less than" answering true says the first extended real is below the second. -/
private theorem lt_of_cmp_olt (x y : EReal) (h : Ideal.cmp .olt x y = 1#1) : x < y := by
  by_contra hn
  simp [Ideal.cmp, hn] at h

/-- An extended real whose absolute value is below +infinity is a real number. -/
private theorem real_of_abs_lt_top (x : EReal) (h : max x (-x) < ⊤) : ∃ r : ℝ, x = (r : EReal) := by
  induction x using EReal.rec with
  | bot => simp at h
  | coe r => exact ⟨r, rfl⟩
  | top => simp at h

open Cert.Pre_finite_inputs Cert.Pre_finite_inputs.Facts in
/-- One array's test: where "every |entry| is below +infinity", and-reduced over the whole array from any start,
    comes out true, every entry is a real number. -/
private theorem array_real (a : FVec Ideal S16777216 .f32) (init : IVec S_ 1)
    (e : Host.reduce IntOp.andi
        (cmpf .olt (Host.absf a)
          (broadcastInDim S16777216 ![] bcast_S_S16777216 (constant (F := Ideal) S_ .f32 0x7F800000#32)))
        init reducesTo_S16777216_S_d0 h_S_ ValueIdx.ix0 = 1#1) :
    ∀ i, ∃ r : ℝ, a i = (r : EReal) := by
  intro i
  have hi := Host.reduce_andi_all _ _ _ _ _ e i
  -- the test at entry i: max (a i) (-(a i)) compared below the denotation of the +infinity word
  have hi' : Ideal.cmp .olt (max (a i) (-(a i))) (Ideal.ofBits .f32 0x7F800000#32) = 1#1 := hi
  rw [ofBits_inf_f32] at hi'
  exact real_of_abs_lt_top _ (lt_of_cmp_olt _ _ hi')

/-- Where the precondition holds, every entry of the four float arrays is a real number. -/
theorem entries_real (a0 a1 a2 a3 : FVec Ideal Cert.Pre_finite_inputs.S16777216 .f32)
    (a4 : IVec Cert.Pre_finite_inputs.S16777216 32)
    (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  -- the result is ((t0 ∧ t1) ∧ t2) ∧ t3, each t an and-reduction of one array's test
  obtain ⟨h012, e3⟩ := IntOp.andi_eq_one.1 h0
  obtain ⟨h01, e2⟩ := IntOp.andi_eq_one.1 h012
  obtain ⟨e0, e1⟩ := IntOp.andi_eq_one.1 h01
  exact ⟨array_real a0 _ e0, array_real a1 _ e1, array_real a2 _ e2, array_real a3 _ e3⟩

end Cert.Finite

end
-- ==== Proof.lean ====
/-
  The kernel against its reference, over the extended reals.

  Both programs take four float arrays of 2^24 entries (predictions o, targets y, label weights wl, weights w) and an
  array of label words, and return (1) the mean over all elements of the term x = a · w, where a = |y − o|, doubled
  where |wl| > 1/2 and |y| − |o| ≤ 0, and (2) for each label u in 0..63 the sum of x over the elements whose label is u,
  divided by 2^24.  The reference computes x elementwise, sums it, and scatters it by label (an element whose label is
  outside 0..63 is dropped by the scatter).  The kernel walks the arrays in 64 blocks of 262144 entries, 32 per core,
  each block in 64 chunks of 4096 lanes: per chunk it adds x lane by lane into a running vector, and builds the 8 × 8
  table of per-label sums as the product of two one-hot matrices — row h of the first marks the lanes whose label's
  high part (label shifted right by three) is h, column l of the second those whose low three bits are l, so that
  cell (h, l) collects the label 8 h + l, and a label outside 0..63 meets no row —; per block it adds the running
  vector's total and the table into the core's two output blocks; the host then adds the two cores' outputs and
  divides by 2^24.  The kernel forms the table twice, once from x and once from x − x (what remains of x after a
  change of float format that is the identity here); x being finite under the precondition, the second table is zero.

  Sums of extended reals re-associate and commute, so the chunked, blocked and per-core sums are the reference's sums
  re-indexed (Algebra.lean), and the decomposition of a label word into high part and low bits is the statement that
  it is the number 8 h + l (Algebra.lean, hit_iff).  The pieces: Body.lean / BodyOut.lean (what the body leaves in
  its outputs at one point, across its 64-trip loop), LaneSum.lean / TableSum.lean (those values at the extended
  reals), Points.lean (the accumulation over the grid), Final.lean (the result arrays and the host operations after
  the region), RefValue.lean (the reference read), Blocks.lean (blocks as stretches of the arrays), Bridge.lean (the
  two results agree), Finite.lean (the precondition read).
-/
import proofs.«417527_j89910845375274_3_alg».proof.Defs
import proofs.«417527_j89910845375274_3_alg».proof.Proof.Gen.Kernel
import proofs.«417527_j89910845375274_3_alg».proof.Proof.Gen.Kernel.Skeleton
import proofs.«417527_j89910845375274_3_alg».proof.Proof.Gen.Kernel.Loops
import proofs.«417527_j89910845375274_3_alg».proof.Proof.Gen.Kernel.Launch
import proofs.«417527_j89910845375274_3_alg».proof.Proof.Gen.Kernel.Points
import proofs.«417527_j89910845375274_3_alg».proof.Proof.Gen.Kernel.Frame
import proofs.«417527_j89910845375274_3_alg».proof.Proof.Gen.KernelIdeal
import proofs.«417527_j89910845375274_3_alg».proof.Proof.Gen.KernelIdeal.Skeleton
import proofs.«417527_j89910845375274_3_alg».proof.Proof.Gen.KernelIdeal.Loops
import proofs.«417527_j89910845375274_3_alg».proof.Proof.Gen.KernelIdeal.Launch
import proofs.«417527_j89910845375274_3_alg».proof.Proof.Gen.KernelIdeal.Points
import proofs.«417527_j89910845375274_3_alg».proof.Proof.Gen.KernelIdeal.Frame
import proofs.«417527_j89910845375274_3_alg».proof.Proof.Gen.ReferenceIdeal
import proofs.«417527_j89910845375274_3_alg».proof.Proof.Gen.ReferenceIdeal.Run
import proofs.«417527_j89910845375274_3_alg».proof.Proof.Gen.ReferenceIdeal.Read
import proofs.«417527_j89910845375274_3_alg».proof.Proof.Gen.Pre_finite_inputs
import proofs.«417527_j89910845375274_3_alg».proof.Proof.Final
import proofs.«417527_j89910845375274_3_alg».proof.Proof.Points
import proofs.«417527_j89910845375274_3_alg».proof.Proof.Bridge
import proofs.«417527_j89910845375274_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: widening back a narrowed vector of 4096 floats is the identity on the
    extended reals, and the rounding through the narrow format at the word level. -/
theorem preserves : Cert.preserves_Kernel_KernelIdeal :=
  IdealRules.truncf_extf.statement Cert.KernelIdeal.S4096 .f32 .bf16

/-- Under the precondition every entry of the four float arguments is a real number. -/
theorem finiteArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KV.FiniteArgs m c :=
  Cert.Finite.entries_real _ _ _ _ _ (hpre c)

/-- From memories agreeing on the arguments both programs run and end at the same two results. -/
theorem algebraic : Cert.algebraic_KernelIdeal_ReferenceIdeal := by
  intro m ρ m' ρ' hpre hagree
  have hfin : ∀ c, Cert.KernelIdeal.KV.FiniteArgs m c := fun c => finiteArgs m hpre c
  refine ⟨fun c => Cert.KernelIdeal.KV.lossOf (Cert.KernelIdeal.KV.sumxArr m c),
    fun c => Cert.KernelIdeal.KV.labelsOf (Cert.KernelIdeal.KV.labArr m c),
    Cert.KernelIdeal.KV.run m ρ (fun c => Cert.KernelIdeal.KV.outsAt_eq m c (hfin c)), ?_⟩
  refine (θ_run Cert.ReferenceIdeal.defs _ _).mono (fun _ h c => ?_) (Cert.ReferenceIdeal.Value.run (F := Ideal) m' ρ')
  obtain ⟨h16, h21, hargs⟩ := h c
  obtain ⟨e0, e1, e2, e3, e4⟩ := hagree c
  refine ⟨?_, ?_, hargs⟩
  · rw [h16, e0, e1, e2, e3, Cert.ReferenceIdeal.Read.val_main_v16_eq]
    exact (Cert.Bridge.loss_bridge m c).symm
  · rw [h21, e0, e1, e2, e3, e4, Cert.ReferenceIdeal.Read.val_main_v21_eq]
    exact (Cert.Bridge.labels_bridge m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
